-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x1024 : Shape := ⟨3, ![2, 256, 1024]⟩
abbrev S262144 : Shape := ⟨1, ![262144]⟩
abbrev S4096 : Shape := ⟨1, ![4096]⟩
abbrev S1024 : Shape := ⟨1, ![1024]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg10 : IVec S262144 32) (main_v61 : IVec S_ 1) (main_v66 : IVec S262144 1) (main_c_26 : IVec S_ 1) : IVec S_ 1 :=
  let main_v67 : IVec S_ 1 := (fun x v => Host.reduce IntOp.andi x v reducesTo_S262144_S_d0 h_S_) main_v66 main_c_26
  let main_v68 : IVec S_ 1 := andi main_v61 main_v67
  let main_c_27 : IVec S_ 32 := constantI S_ 32 0#32
  let main_v69 : IVec S262144 32 := broadcastInDim S262144 ![] bcast_S_S262144 main_c_27
  let main_v70 : IVec S262144 1 := cmpi .sge main_arg10 main_v69
  let main_c_28 : IVec S_ 32 := constantI S_ 32 4096#32
  let main_v71 : IVec S262144 32 := broadcastInDim S262144 ![] bcast_S_S262144 main_c_28
  let main_v72 : IVec S262144 1 := cmpi .slt main_arg10 main_v71
  let main_v73 : IVec S262144 1 := andi main_v70 main_v72
  let main_c_29 : IVec S_ 1 := constantI S_ 1 1#1
  let main_v74 : IVec S_ 1 := (fun x v => Host.reduce IntOp.andi x v reducesTo_S262144_S_d0 h_S_) main_v73 main_c_29
  let main_v75 : IVec S_ 1 := andi main_v68 main_v74
  main_v75

def fn_part3 {F : FTy → Type} [FloatOps F] (main_arg5 : IVec S262144 32) (main_arg6 : IVec S262144 32) (main_arg9 : IVec S262144 32) (main_arg10 : IVec S262144 32) (main_v47 : IVec S_ 1) (main_v49 : IVec S262144 1) (main_c_19 : IVec S_ 32) : IVec S_ 1 :=
  let main_v50 : IVec S262144 32 := broadcastInDim S262144 ![] bcast_S_S262144 main_c_19
  let main_v51 : IVec S262144 1 := cmpi .slt main_arg5 main_v50
  let main_v52 : IVec S262144 1 := andi main_v49 main_v51
  let main_c_20 : IVec S_ 1 := constantI S_ 1 1#1
  let main_v53 : IVec S_ 1 := (fun x v => Host.reduce IntOp.andi x v reducesTo_S262144_S_d0 h_S_) main_v52 main_c_20
  let main_v54 : IVec S_ 1 := andi main_v47 main_v53
  let main_c_21 : IVec S_ 32 := constantI S_ 32 0#32
  let main_v55 : IVec S262144 32 := broadcastInDim S262144 ![] bcast_S_S262144 main_c_21
  let main_v56 : IVec S262144 1 := cmpi .sge main_arg6 main_v55
  let main_c_22 : IVec S_ 32 := constantI S_ 32 1024#32
  let main_v57 : IVec S262144 32 := broadcastInDim S262144 ![] bcast_S_S262144 main_c_22
  let main_v58 : IVec S262144 1 := cmpi .slt main_arg6 main_v57
  let main_v59 : IVec S262144 1 := andi main_v56 main_v58
  let main_c_23 : IVec S_ 1 := constantI S_ 1 1#1
  let main_v60 : IVec S_ 1 := (fun x v => Host.reduce IntOp.andi x v reducesTo_S262144_S_d0 h_S_) main_v59 main_c_23
  let main_v61 : IVec S_ 1 := andi main_v54 main_v60
  let main_c_24 : IVec S_ 32 := constantI S_ 32 0#32
  let main_v62 : IVec S262144 32 := broadcastInDim S262144 ![] bcast_S_S262144 main_c_24
  let main_v63 : IVec S262144 1 := cmpi .sge main_arg9 main_v62
  let main_c_25 : IVec S_ 32 := constantI S_ 32 1024#32
  let main_v64 : IVec S262144 32 := broadcastInDim S262144 ![] bcast_S_S262144 main_c_25
  let main_v65 : IVec S262144 1 := cmpi .slt main_arg9 main_v64
  let main_v66 : IVec S262144 1 := andi main_v63 main_v65
  let main_c_26 : IVec S_ 1 := constantI S_ 1 1#1
  fn_part4 (F := F) main_arg10 main_v61 main_v66 main_c_26

def fn_part2 {F : FTy → Type} [FloatOps F] (main_arg1 : IVec S262144 32) (main_arg2 : IVec S262144 32) (main_arg5 : IVec S262144 32) (main_arg6 : IVec S262144 32) (main_arg9 : IVec S262144 32) (main_arg10 : IVec S262144 32) (main_v33 : IVec S_ 1) : IVec S_ 1 :=
  let main_c_12 : IVec S_ 32 := constantI S_ 32 0#32
  let main_v34 : IVec S262144 32 := broadcastInDim S262144 ![] bcast_S_S262144 main_c_12
  let main_v35 : IVec S262144 1 := cmpi .sge main_arg1 main_v34
  let main_c_13 : IVec S_ 32 := constantI S_ 32 4096#32
  let main_v36 : IVec S262144 32 := broadcastInDim S262144 ![] bcast_S_S262144 main_c_13
  let main_v37 : IVec S262144 1 := cmpi .slt main_arg1 main_v36
  let main_v38 : IVec S262144 1 := andi main_v35 main_v37
  let main_c_14 : IVec S_ 1 := constantI S_ 1 1#1
  let main_v39 : IVec S_ 1 := (fun x v => Host.reduce IntOp.andi x v reducesTo_S262144_S_d0 h_S_) main_v38 main_c_14
  let main_v40 : IVec S_ 1 := andi main_v33 main_v39
  let main_c_15 : IVec S_ 32 := constantI S_ 32 0#32
  let main_v41 : IVec S262144 32 := broadcastInDim S262144 ![] bcast_S_S262144 main_c_15
  let main_v42 : IVec S262144 1 := cmpi .sge main_arg2 main_v41
  let main_c_16 : IVec S_ 32 := constantI S_ 32 1024#32
  let main_v43 : IVec S262144 32 := broadcastInDim S262144 ![] bcast_S_S262144 main_c_16
  let main_v44 : IVec S262144 1 := cmpi .slt main_arg2 main_v43
  let main_v45 : IVec S262144 1 := andi main_v42 main_v44
  let main_c_17 : IVec S_ 1 := constantI S_ 1 1#1
  let main_v46 : IVec S_ 1 := (fun x v => Host.reduce IntOp.andi x v reducesTo_S262144_S_d0 h_S_) main_v45 main_c_17
  let main_v47 : IVec S_ 1 := andi main_v40 main_v46
  let main_c_18 : IVec S_ 32 := constantI S_ 32 0#32
  let main_v48 : IVec S262144 32 := broadcastInDim S262144 ![] bcast_S_S262144 main_c_18
  let main_v49 : IVec S262144 1 := cmpi .sge main_arg5 main_v48
  let main_c_19 : IVec S_ 32 := constantI S_ 32 4096#32
  fn_part3 (F := F) main_arg5 main_arg6 main_arg9 main_arg10 main_v47 main_v49 main_c_19

def fn_part1 {F : FTy → Type} [FloatOps F] (main_arg1 : IVec S262144 32) (main_arg2 : IVec S262144 32) (main_arg5 : IVec S262144 32) (main_arg6 : IVec S262144 32) (main_arg8 : FVec F S4096 .f32) (main_arg9 : IVec S262144 32) (main_arg10 : IVec S262144 32) (main_arg11 : FVec F S262144 .f32) (main_arg12 : FVec F S1024 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S4096 .f32 := Host.absf main_arg8
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S262144 .f32 := Host.absf main_arg11
  let main_cst_8 : FVec F S_ .f32 := constant S_ .f32 0x7F800000#32
  let main_v25 : FVec F S262144 .f32 := broadcastInDim S262144 ![] bcast_S_S262144 main_cst_8
  let main_v26 : IVec S262144 1 := cmpf .olt main_v24 main_v25
  let main_c_9 : IVec S_ 1 := constantI S_ 1 1#1
  let main_v27 : IVec S_ 1 := (fun x v => Host.reduce IntOp.andi x v reducesTo_S262144_S_d0 h_S_) main_v26 main_c_9
  let main_v28 : IVec S_ 1 := andi main_v23 main_v27
  let main_v29 : FVec F S1024 .f32 := Host.absf main_arg12
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_arg5 main_arg6 main_arg9 main_arg10 main_v33

def fn {F : FTy → Type} [FloatOps F] (main_arg0 : FVec F S2x256x1024 .f32) (main_arg1 : IVec S262144 32) (main_arg2 : IVec S262144 32) (main_arg3 : FVec F S262144 .f32) (main_arg4 : FVec F S4096 .f32) (main_arg5 : IVec S262144 32) (main_arg6 : IVec S262144 32) (main_arg7 : FVec F S262144 .f32) (main_arg8 : FVec F S4096 .f32) (main_arg9 : IVec S262144 32) (main_arg10 : IVec S262144 32) (main_arg11 : FVec F S262144 .f32) (main_arg12 : FVec F S1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S262144 .f32 := Host.absf main_arg7
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg1 main_arg2 main_arg5 main_arg6 main_arg8 main_arg9 main_arg10 main_arg11 main_arg12 main_v13 main_v16
-- ==== Kernel.lean ====
abbrev S2x256x1024 : Shape := ⟨3, ![2, 256, 1024]⟩
abbrev S262144 : Shape := ⟨1, ![262144]⟩
abbrev S4096 : Shape := ⟨1, ![4096]⟩
abbrev S1024 : Shape := ⟨1, ![1024]⟩
abbrev S512x1024 : Shape := ⟨2, ![512, 1024]⟩
abbrev S_ : Shape := ⟨0, ![]⟩
abbrev S524288 : Shape := ⟨1, ![524288]⟩
abbrev S8388608 : Shape := ⟨1, ![8388608]⟩
abbrev S524288x1 : Shape := ⟨2, ![524288, 1]⟩
abbrev S4194304 : Shape := ⟨1, ![4194304]⟩
abbrev S1024x4096 : Shape := ⟨2, ![1024, 4096]⟩
abbrev S262144x1 : Shape := ⟨2, ![262144, 1]⟩
abbrev S4096x1024 : Shape := ⟨2, ![4096, 1024]⟩
abbrev S1x4096 : Shape := ⟨2, ![1, 4096]⟩
abbrev S1x1024 : Shape := ⟨2, ![1, 1024]⟩
abbrev S256x1024 : Shape := ⟨2, ![256, 1024]⟩
abbrev S1024x512 : Shape := ⟨2, ![1024, 512]⟩
abbrev S1x512 : Shape := ⟨2, ![1, 512]⟩
abbrev S256x512 : Shape := ⟨2, ![256, 512]⟩

abbrev nBuf : Space → Nat
  | .hbm => 67
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S4096, .f32⟩
  | .hbm, ⟨5, _⟩ => ⟨S262144, .i32⟩
  | .hbm, ⟨6, _⟩ => ⟨S262144, .i32⟩
  | .hbm, ⟨7, _⟩ => ⟨S262144, .f32⟩
  | .hbm, ⟨8, _⟩ => ⟨S4096, .f32⟩
  | .hbm, ⟨9, _⟩ => ⟨S262144, .i32⟩
  | .hbm, ⟨10, _⟩ => ⟨S262144, .i32⟩
  | .hbm, ⟨11, _⟩ => ⟨S262144, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S524288, .i32⟩
  | .hbm, ⟨27, _⟩ => ⟨S524288, .f32⟩
  | .hbm, ⟨28, _⟩ => ⟨S_, .f32⟩
  | .hbm, ⟨29, _⟩ => ⟨S8388608, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S8388608, .f32⟩
  | .hbm, ⟨39, _⟩ => ⟨S4194304, .f32⟩
  | .hbm, ⟨40, _⟩ => ⟨S1024x4096, .f32⟩
  | .hbm, ⟨41, _⟩ => ⟨S4194304, .f32⟩
  | .hbm, ⟨42, _⟩ => ⟨S1024x4096, .f32⟩
  | .hbm, ⟨43, _⟩ => ⟨S1024x4096, .bf16⟩
  | .hbm, ⟨44, _⟩ => ⟨S1024x4096, .bf16⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S_, .f32⟩
  | .hbm, ⟨50, _⟩ => ⟨S4194304, .f32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S4194304, .f32⟩
  | .hbm, ⟨60, _⟩ => ⟨S4096x1024, .f32⟩
  | .hbm, ⟨61, _⟩ => ⟨S4096x1024, .bf16⟩
  | .hbm, ⟨62, _⟩ => ⟨S1x4096, .f32⟩
  | .hbm, ⟨63, _⟩ => ⟨S1x4096, .f32⟩
  | .hbm, ⟨64, _⟩ => ⟨S1x1024, .f32⟩
  | .hbm, ⟨65, _⟩ => ⟨S512x1024, .f32⟩
  | .hbm, ⟨66, _⟩ => ⟨S2x256x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2x256x1024_S512x1024 : S2x256x1024.ShapeCasts S512x1024
  bitsLt_bf16_f32 : FTy.bits .bf16 < FTy.bits .f32
  bcast_S_S262144 : S_.BroadcastsInDim S262144 (![] : Fin 0 → Fin S262144.rank)
  concatenates_S262144_S262144_S524288_d0 : Shape.Concatenates [S262144, S262144] S524288 0
  bcast_S_S8388608 : S_.BroadcastsInDim S8388608 (![] : Fin 0 → Fin S8388608.rank)
  bcast_S_S524288 : S_.BroadcastsInDim S524288 (![] : Fin 0 → Fin S524288.rank)
  bcast_S524288_S524288x1_0 : S524288.BroadcastsInDim S524288x1 (![0] : Fin 1 → Fin S524288x1.rank)
  slices_S8388608_S4194304_0 : S8388608.Slices ![0] S4194304
  shapeCasts_S4194304_S1024x4096 : S4194304.ShapeCasts S1024x4096
  slices_S8388608_S4194304_4194304 : S8388608.Slices ![4194304] S4194304
  bcast_S_S4194304 : S_.BroadcastsInDim S4194304 (![] : Fin 0 → Fin S4194304.rank)
  bcast_S262144_S262144x1_0 : S262144.BroadcastsInDim S262144x1 (![0] : Fin 1 → Fin S262144x1.rank)
  shapeCasts_S4194304_S4096x1024 : S4194304.ShapeCasts S4096x1024
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S512x1024_S2x256x1024 : S512x1024.ShapeCasts S2x256x1024
  scatter_S8388608_S524288x1_S524288_n_0_0_1_wf : ScatterDims.WF S8388608 S524288x1 S524288 [] [0] [0] 1
  scatter_S4194304_S262144x1_S262144_n_0_0_1_wf : ScatterDims.WF S4194304 S262144x1 S262144 [] [0] [0] 1
  dot_S256x1024_S1024x512_S256x512_1_0_0_1_n_n_wf : DotDims.WF S256x1024 S1024x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .bf16 = 32 ∨ (Rect.block (s := S512x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S512x1024.size a
  hwx0_1 : ∀ i : grid0.Coords, EltTy.bits .f32 = 32 ∨ (Rect.block (s := S512x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x4096.size a
  hwx0_2 : ∀ i : grid0.Coords, EltTy.bits .bf16 = 32 ∨ (Rect.block (s := S1024x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .bf16 = 32 ∨ (Rect.block (s := S1024x4096) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S512x1024.size a
  hwx0_8 : ∀ i : grid0.Coords, EltTy.bits .f32 = 32 ∨ (Rect.block (s := S512x1024) S256x1024.size (cc0_transform_8 i) (hinb0_8 i)).WholeWords (EltTy.packing .f32)

variable [Facts₀]

def scatter_S8388608_S524288x1_S524288_n_0_0_1 : ScatterDims S8388608 S524288x1 S524288 where
  updateWindowDims := []
  insertedWindowDims := [0]
  scatterDimsToOperandDims := [0]
  indexVectorDim := 1
  wf := scatter_S8388608_S524288x1_S524288_n_0_0_1_wf
def scatter_S4194304_S262144x1_S262144_n_0_0_1 : ScatterDims S4194304 S262144x1 S262144 where
  updateWindowDims := []
  insertedWindowDims := [0]
  scatterDimsToOperandDims := [0]
  indexVectorDim := 1
  wf := scatter_S4194304_S262144x1_S262144_n_0_0_1_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2x256x1024 : Shape := ⟨3, ![2, 256, 1024]⟩
abbrev S262144 : Shape := ⟨1, ![262144]⟩
abbrev S4096 : Shape := ⟨1, ![4096]⟩
abbrev S1024 : Shape := ⟨1, ![1024]⟩
abbrev S512x1024 : Shape := ⟨2, ![512, 1024]⟩
abbrev S_ : Shape := ⟨0, ![]⟩
abbrev S262144x1 : Shape := ⟨2, ![262144, 1]⟩
abbrev S512x262144 : Shape := ⟨2, ![512, 262144]⟩
abbrev S1x262144 : Shape := ⟨2, ![1, 262144]⟩
abbrev S262144x512 : Shape := ⟨2, ![262144, 512]⟩
abbrev S4096x512 : Shape := ⟨2, ![4096, 512]⟩
abbrev S512x4096 : Shape := ⟨2, ![512, 4096]⟩
abbrev S1x4096 : Shape := ⟨2, ![1, 4096]⟩
abbrev S1024x512 : Shape := ⟨2, ![1024, 512]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S4096, .f32⟩
  | .hbm, ⟨5, _⟩ => ⟨S262144, .i32⟩
  | .hbm, ⟨6, _⟩ => ⟨S262144, .i32⟩
  | .hbm, ⟨7, _⟩ => ⟨S262144, .f32⟩
  | .hbm, ⟨8, _⟩ => ⟨S4096, .f32⟩
  | .hbm, ⟨9, _⟩ => ⟨S262144, .i32⟩
  | .hbm, ⟨10, _⟩ => ⟨S262144, .i32⟩
  | .hbm, ⟨11, _⟩ => ⟨S262144, .f32⟩
  | .hbm, ⟨12, _⟩ => ⟨S1024, .f32⟩
  | .hbm, ⟨13, _⟩ => ⟨S512x1024, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S512x262144, .f32⟩
  | .hbm, ⟨23, _⟩ => ⟨S1x262144, .f32⟩
  | .hbm, ⟨24, _⟩ => ⟨S512x262144, .f32⟩
  | .hbm, ⟨25, _⟩ => ⟨S512x262144, .f32⟩
  | .hbm, ⟨26, _⟩ => ⟨S262144x512, .f32⟩
  | .hbm, ⟨27, _⟩ => ⟨S_, .f32⟩
  | .hbm, ⟨28, _⟩ => ⟨S4096x512, .f32⟩
  | .hbm, ⟨29, _⟩ => ⟨S262144x1, .i32⟩
  | .hbm, ⟨30, _⟩ => ⟨S4096x512, .f32⟩
  | .hbm, ⟨31, _⟩ => ⟨S512x4096, .f32⟩
  | .hbm, ⟨32, _⟩ => ⟨S1x4096, .f32⟩
  | .hbm, ⟨33, _⟩ => ⟨S512x4096, .f32⟩
  | .hbm, ⟨34, _⟩ => ⟨S512x4096, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S512x262144, .f32⟩
  | .hbm, ⟨44, _⟩ => ⟨S1x262144, .f32⟩
  | .hbm, ⟨45, _⟩ => ⟨S512x262144, .f32⟩
  | .hbm, ⟨46, _⟩ => ⟨S512x262144, .f32⟩
  | .hbm, ⟨47, _⟩ => ⟨S262144x512, .f32⟩
  | .hbm, ⟨48, _⟩ => ⟨S_, .f32⟩
  | .hbm, ⟨49, _⟩ => ⟨S4096x512, .f32⟩
  | .hbm, ⟨50, _⟩ => ⟨S262144x1, .i32⟩
  | .hbm, ⟨51, _⟩ => ⟨S4096x512, .f32⟩
  | .hbm, ⟨52, _⟩ => ⟨S512x4096, .f32⟩
  | .hbm, ⟨53, _⟩ => ⟨S1x4096, .f32⟩
  | .hbm, ⟨54, _⟩ => ⟨S512x4096, .f32⟩
  | .hbm, ⟨55, _⟩ => ⟨S512x4096, .f32⟩
  | .hbm, ⟨56, _⟩ => ⟨S512x4096, .f32⟩
  | .hbm, ⟨57, _⟩ => ⟨S512x4096, .f32⟩
  | .hbm, ⟨58, _⟩ => ⟨S_, .f32⟩
  | .hbm, ⟨59, _⟩ => ⟨S512x4096, .f32⟩
  | .hbm, ⟨60, _⟩ => ⟨S512x4096, .f32⟩
  | .hbm, ⟨61, _⟩ => ⟨S_, .f32⟩
  | .hbm, ⟨62, _⟩ => ⟨S512x4096, .f32⟩
  | .hbm, ⟨63, _⟩ => ⟨S512x4096, .f32⟩
  | .hbm, ⟨64, _⟩ => ⟨S512x4096, .f32⟩
  | .hbm, ⟨65, _⟩ => ⟨S512x4096, .f32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S262144x1, .i32⟩
  | .hbm, ⟨74, _⟩ => ⟨S512x262144, .f32⟩
  | .hbm, ⟨75, _⟩ => ⟨S1x262144, .f32⟩
  | .hbm, ⟨76, _⟩ => ⟨S512x262144, .f32⟩
  | .hbm, ⟨77, _⟩ => ⟨S512x262144, .f32⟩
  | .hbm, ⟨78, _⟩ => ⟨S262144x512, .f32⟩
  | .hbm, ⟨79, _⟩ => ⟨S_, .f32⟩
  | .hbm, ⟨80, _⟩ => ⟨S1024x512, .f32⟩
  | .hbm, ⟨81, _⟩ => ⟨S262144x1, .i32⟩
  | .hbm, ⟨82, _⟩ => ⟨S1024x512, .f32⟩
  | .hbm, ⟨83, _⟩ => ⟨S512x1024, .f32⟩
  | .hbm, ⟨84, _⟩ => ⟨S1x1024, .f32⟩
  | .hbm, ⟨85, _⟩ => ⟨S512x1024, .f32⟩
  | .hbm, ⟨86, _⟩ => ⟨S512x1024, .f32⟩
  | .hbm, ⟨87, _⟩ => ⟨S512x1024, .f32⟩
  | .hbm, ⟨88, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_c_4 : Ref sig .tc := ⟨.hbm, 66, rfl⟩
abbrev main_v39 : Ref sig .tc := ⟨.hbm, 67, rfl⟩
abbrev main_v40 : Ref sig .tc := ⟨.hbm, 68, rfl⟩
abbrev main_c_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  shapeCasts_S2x256x1024_S512x1024 : S2x256x1024.ShapeCasts S512x1024
  bcast_S_S262144 : S_.BroadcastsInDim S262144 (![] : Fin 0 → Fin S262144.rank)
  bcast_S262144_S262144x1_0 : S262144.BroadcastsInDim S262144x1 (![0] : Fin 1 → Fin S262144x1.rank)
  bcast_S262144_S1x262144_1 : S262144.BroadcastsInDim S1x262144 (![1] : Fin 1 → Fin S1x262144.rank)
  bcast_S1x262144_S512x262144_0_1 : S1x262144.BroadcastsInDim S512x262144 (![0, 1] : Fin 2 → Fin S512x262144.rank)
  transposes_S512x262144_S262144x512_1_0 : S512x262144.Transposes [1, 0] S262144x512
  bcast_S_S4096x512 : S_.BroadcastsInDim S4096x512 (![] : Fin 0 → Fin S4096x512.rank)
  transposes_S4096x512_S512x4096_1_0 : S4096x512.Transposes [1, 0] S512x4096
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  bcast_S_S512x4096 : S_.BroadcastsInDim S512x4096 (![] : Fin 0 → Fin S512x4096.rank)
  bcast_S_S1024x512 : S_.BroadcastsInDim S1024x512 (![] : Fin 0 → Fin S1024x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  shapeCasts_S512x1024_S2x256x1024 : S512x1024.ShapeCasts S2x256x1024
  gather_S512x1024_S262144x1_S512x262144_0_1_n_n_1_1_5121_wf : GatherDims.WF S512x1024 S262144x1 S512x262144 [0] [1] [] [1] [] 1 ![512, 1]
  scatter_S4096x512_S262144x1_S262144x512_1_0_0_1_wf : ScatterDims.WF S4096x512 S262144x1 S262144x512 [1] [0] [0] 1
  gather_S512x4096_S262144x1_S512x262144_0_1_n_n_1_1_5121_wf : GatherDims.WF S512x4096 S262144x1 S512x262144 [0] [1] [] [1] [] 1 ![512, 1]
  scatter_S1024x512_S262144x1_S262144x512_1_0_0_1_wf : ScatterDims.WF S1024x512 S262144x1 S262144x512 [1] [0] [0] 1

variable [Facts₀]

def gather_S512x1024_S262144x1_S512x262144_0_1_n_n_1_1_5121 : GatherDims S512x1024 S262144x1 S512x262144 where
  offsetDims := [0]
  collapsedSliceDims := [1]
  operandBatchingDims := []
  startIndicesBatchingDims := []
  startIndexMap := [1]
  indexVectorDim := 1
  sliceSizes := ![512, 1]
  wf := gather_S512x1024_S262144x1_S512x262144_0_1_n_n_1_1_5121_wf
def scatter_S4096x512_S262144x1_S262144x512_1_0_0_1 : ScatterDims S4096x512 S262144x1 S262144x512 where
  updateWindowDims := [1]
  insertedWindowDims := [0]
  scatterDimsToOperandDims := [0]
  indexVectorDim := 1
  wf := scatter_S4096x512_S262144x1_S262144x512_1_0_0_1_wf
def gather_S512x4096_S262144x1_S512x262144_0_1_n_n_1_1_5121 : GatherDims S512x4096 S262144x1 S512x262144 where
  offsetDims := [0]
  collapsedSliceDims := [1]
  operandBatchingDims := []
  startIndicesBatchingDims := []
  startIndexMap := [1]
  indexVectorDim := 1
  sliceSizes := ![512, 1]
  wf := gather_S512x4096_S262144x1_S512x262144_0_1_n_n_1_1_5121_wf
def scatter_S1024x512_S262144x1_S262144x512_1_0_0_1 : ScatterDims S1024x512 S262144x1 S262144x512 where
  updateWindowDims := [1]
  insertedWindowDims := [0]
  scatterDimsToOperandDims := [0]
  indexVectorDim := 1
  wf := scatter_S1024x512_S262144x1_S262144x512_1_0_0_1_wf

class Facts : Prop extends Facts₀ where

variable [Facts]
-- ==== Proof.Spec.lean ====
/-
  A two-layer gated perceptron whose three weight matrices arrive as lists of nonzero entries
  (row, column, value), as a function of its arguments, at the extended reals.

  With X[t, a] the input's token t = 256·b + r and feature a, a list (row, col, val) of 262144 entries
  and a bias, the projection of a token is written in two ways:
    * through the dense table  W[a, o] = Σ { val n | col n = a, row n = o }  (entries that meet are summed):
        denseLin  X W bias t o = Σ_a X[t, a] · W[a, o] + bias[o];
    * entry by entry:
        sparseLin X row col val bias t o = Σ { X[t, col n] · val n | row n = o } + bias[o].
  The hidden activation is  gated u g = (u · logistic u) · g  of the "up" and "gate" projections, and the
  result adds the "down" projection of the hidden activation and the input token itself.
  `kernelOut` spells the result through dense tables, `refOut` entry by entry; they agree when every
  float argument is a real number and every index is in range (distributivity of · over finite sums of reals).
-/
import Idealize.ShloMosaic.PureOps.Ideal
import Idealize.ShloMosaic.Lib.ValueIdx

noncomputable section

namespace Cert.SparseMlp

open Idealize.ShloMosaic Idealize.ShloMosaic.ValueIdx

/-- A list of 262144 nonzero entries. -/
abbrev SN : Shape := ⟨1, ![262144]⟩
/-- The input and the result: 2 × 256 tokens of 1024 features. -/
abbrev SX : Shape := ⟨3, ![2, 256, 1024]⟩
/-- A bias over the hidden width, and one over the model width. -/
abbrev SH : Shape := ⟨1, ![4096]⟩
abbrev SD : Shape := ⟨1, ![1024]⟩

/-- Every entry is a real number. -/
def Finite {s : Shape} (v : s.Idx → EReal) : Prop := ∀ i, ∃ r : ℝ, v i = (r : EReal)

/-- Every index word, read unsigned, is below `n` (for `n < 2³¹`: the word is in `[0, n)` signed). -/
def InRange {s : Shape} (v : s.Idx → BitVec 32) (n : ℕ) : Prop := ∀ i, (v i).toNat < n

/-- Token `t = 256·b + r` of the input, feature `a`. -/
def tok (x : SX.Idx → EReal) (t : Fin 512) (a : Fin 1024) : EReal :=
  x (ix3 (⟨t.val / 256, by omega⟩ : Fin 2) (⟨t.val % 256, by omega⟩ : Fin 256) a)

/-- The dense table of a list of entries, transposed: `W[a, o]` sums the values of the entries with column `a` and row `o`. -/
def dense {I O : ℕ} (row col : SN.Idx → BitVec 32) (val : SN.Idx → EReal) (a : Fin I) (o : Fin O) : EReal :=
  ∑ n ∈ Finset.univ.filter (fun n : SN.Idx => (col n).toNat = a.val ∧ (row n).toNat = o.val), val n

/-- A projection through a dense table. -/
def denseLin {T I O : ℕ} (X : Fin T → Fin I → EReal) (W : Fin I → Fin O → EReal) (bias : Fin O → EReal)
    (t : Fin T) (o : Fin O) : EReal :=
  (∑ a : Fin I, X t a * W a o) + bias o

/-- The same projection entry by entry: the entries of row `o`, each times the input at its column
    (an entry whose column is out of range, which the range hypotheses exclude, counts as zero). -/
def sparseLin {T I O : ℕ} (X : Fin T → Fin I → EReal) (row col : SN.Idx → BitVec 32) (val : SN.Idx → EReal)
    (bias : Fin O → EReal) (t : Fin T) (o : Fin O) : EReal :=
  (∑ n ∈ Finset.univ.filter (fun n : SN.Idx => (row n).toNat = o.val),
      (if h : (col n).toNat < I then X t ⟨(col n).toNat, h⟩ else 0) * val n) + bias o

/-- The gated activation: `silu u · g`, with `silu u = u · logistic u`. -/
def gated (u g : EReal) : EReal := (u * Ideal.logistic u) * g

section
variable (x : SX.Idx → EReal)
  (urow ucol : SN.Idx → BitVec 32) (uval : SN.Idx → EReal) (ub : SH.Idx → EReal)
  (grow gcol : SN.Idx → BitVec 32) (gval : SN.Idx → EReal) (gb : SH.Idx → EReal)
  (drow dcol : SN.Idx → BitVec 32) (dval : SN.Idx → EReal) (db : SD.Idx → EReal)

/-- The hidden activation through dense tables. -/
def hiddenDense (t : Fin 512) (h : Fin 4096) : EReal :=
  gated (denseLin (tok x) (dense urow ucol uval) (fun h => ub (ix1 h)) t h)
    (denseLin (tok x) (dense grow gcol gval) (fun h => gb (ix1 h)) t h)

/-- The result through dense tables, added as the blocked computation adds: (token + down projection) + bias. -/
def kernelVal (t : Fin 512) (d : Fin 1024) : EReal :=
  (tok x t d + ∑ h : Fin 4096, hiddenDense x urow ucol uval ub grow gcol gval gb t h * dense drow dcol dval h d)
    + db (ix1 d)

/-- The hidden activation entry by entry. -/
def hiddenSparse (t : Fin 512) (h : Fin 4096) : EReal :=
  gated (sparseLin (tok x) urow ucol uval (fun h => ub (ix1 h)) t h)
    (sparseLin (tok x) grow gcol gval (fun h => gb (ix1 h)) t h)

/-- The result entry by entry: token + (down projection + bias). -/
def refVal (t : Fin 512) (d : Fin 1024) : EReal :=
  tok x t d + sparseLin (hiddenSparse x urow ucol uval ub grow gcol gval gb) drow dcol dval (fun d => db (ix1 d)) t d

/-- Both as arrays of the result's shape: index (b, r, d) is token 256·b + r. -/
def tokOf (i : SX.Idx) : Fin 512 := ⟨256 * (i 0).val + (i 1).val, by
  have h0 : (i 0).val < 2 := (i 0).isLt
  have h1 : (i 1).val < 256 := (i 1).isLt
  omega⟩

def kernelOut : SX.Idx → EReal := fun i =>
  kernelVal x urow ucol uval ub grow gcol gval gb drow dcol dval db (tokOf i) (i 2)

def refOut : SX.Idx → EReal := fun i =>
  refVal x urow ucol uval ub grow gcol gval gb drow dcol dval db (tokOf i) (i 2)

end

end Cert.SparseMlp

end
-- ==== Proof.Hyps.lean ====
/-
  The precondition read back. It is one conjunction of thirteen "for all entries" tests, each a reduction by "and" of a
  one-bit array into a single bit, and the hypothesis says the conjunction is 1.
    * A conjunction of one-bit words is 1 exactly when both words are, so each of the thirteen reductions is 1, and a
      reduction by "and" that is 1 met a 1 at every entry.
    * Seven tests compare |v i| = max (v i) (−(v i)) with the pattern 0x7F800000, which denotes +∞. An extended real with
      max v (−v) < ⊤ is neither ⊤ nor ⊥ (for either of them the maximum is ⊤), so it is a real number.
    * Six tests say 0 ≤ w i and w i < n for a 32-bit word read as a signed integer, with n < 2³¹. A word whose signed
      reading is nonnegative is below 2³¹ unsigned, where the signed and the unsigned reading agree; so w i < n unsigned.
-/
import proofs.«401864_j62380105007473_3_alg».proof.Pre_finite_inputs
import proofs.«401864_j62380105007473_3_alg».proof.Proof.Spec
import Idealize.ShloMosaic.Lib.ReduceAll
import Idealize.ShloMosaic.Lib.StableHlo.Predicate

noncomputable section

namespace Cert.SparseMlp.Hyps

open Cert.SparseMlp Idealize.ShloMosaic

/-- What the precondition says of the thirteen arguments. -/
structure Facts (x : SX.Idx → EReal)
    (urow ucol : SN.Idx → BitVec 32) (uval : SN.Idx → EReal) (ub : SH.Idx → EReal)
    (grow gcol : SN.Idx → BitVec 32) (gval : SN.Idx → EReal) (gb : SH.Idx → EReal)
    (drow dcol : SN.Idx → BitVec 32) (dval : SN.Idx → EReal) (db : SD.Idx → EReal) : Prop where
  x : Finite x
  uval : Finite uval
  ub : Finite ub
  gval : Finite gval
  gb : Finite gb
  dval : Finite dval
  db : Finite db
  urow : InRange urow 4096
  ucol : InRange ucol 1024
  grow : InRange grow 4096
  gcol : InRange gcol 1024
  drow : InRange drow 1024
  dcol : InRange dcol 4096

/-- The shape of a single bit: the result of every test. -/
abbrev S0 : Shape := Cert.Pre_finite_inputs.S_

/-- The scalar shape has one index. -/
instance : Subsingleton S0.Idx := ⟨fun a b => funext fun d => d.elim0⟩

/-- The pattern the float tests compare with is +∞. -/
theorem top_lit : Ideal.ofBits .f32 0x7F800000#32 = ⊤ := by simp [Ideal.ofBits, Ideal.ieee]

/-- An extended real whose absolute value max x (−x) is below +∞ is a real number: at ⊤ and at ⊥ the maximum is ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max (x : EReal) (-(x : EReal))) (Ideal.ofBits .f32 0x7F800000#32) = 1#1 at h
  rw [top_lit] at h
  unfold Ideal.cmp at h
  rw [StableHlo.Predicate.ofBool_eq_one_iff, decide_eq_true_eq, max_lt_iff] at h
  induction x using EReal.rec with
  | bot => simp at h
  | coe r => exact ⟨r, rfl⟩
  | top => simp at h

/-- A word in [0, n) signed, with n < 2³¹, is below n unsigned: a nonnegative signed reading puts the word below 2³¹,
    where both readings agree. -/
theorem toNat_lt_of_signed (w : BitVec 32) (n : ℕ) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  rw [IntOp.cmpi_sge] at h0
  rw [IntOp.cmpi_slt, StableHlo.Predicate.toInt_ofNat_small n hn] at h1
  have hz : (0#32 : BitVec 32).toInt = 0 := by decide
  rw [hz] at h0
  have hlt : w.toNat < 2 ^ 31 := by
    by_contra hc
    have : w.toInt < 0 := by
      rw [BitVec.toInt_eq_toNat_cond]
      have := w.isLt
      split <;> omega
    omega
  rw [StableHlo.Predicate.toInt_eq_toNat_of_lt hlt] at h1
  exact_mod_cast h1

/-- A conjunction of two single bits that is 1: both are. -/
theorem andi_at (a b : IVec S0 1) (j : S0.Idx) (h : andi a b j = 1#1) : a j = 1#1 ∧ b j = 1#1 :=
  IntOp.andi_eq_one.1 h

section
variable {s : Shape} {axes : List (Fin s.rank)}

/-- The float test over all entries: every entry is a real number. -/
theorem finite_of_all (x : FVec Ideal s .f32) (hb : S0.BroadcastsInDim s (![] : Fin 0 → Fin s.rank))
    (hr : s.ReducesTo axes S0) (hu : 0 < S0.numel) (init : IVec S0 1) (j : S0.Idx)
    (e : Host.reduce IntOp.andi
      (cmpf .olt (Host.absf x) (broadcastInDim s ![] hb (constant (F := Ideal) S0 .f32 0x7F800000#32))) init hr hu j = 1#1) :
    Finite x := fun i =>
  real_of_abs_lt (x i) (Host.reduce_andi_all _ init hr hu j e i)

/-- The index test over all entries: every word, read unsigned, is below the bound. -/
theorem inRange_of_all (w : IVec s 32) (n : ℕ) (hn : n < 2 ^ 31) (hb : S0.BroadcastsInDim s (![] : Fin 0 → Fin s.rank))
    (hr : s.ReducesTo axes S0) (hu : 0 < S0.numel) (init : IVec S0 1) (j : S0.Idx)
    (e : Host.reduce IntOp.andi
      (andi (cmpi .sge w (broadcastInDim s ![] hb (constantI S0 32 0#32)))
        (cmpi .slt w (broadcastInDim s ![] hb (constantI S0 32 (BitVec.ofNat 32 n))))) init hr hu j = 1#1) :
    InRange w n := fun i =>
  toNat_lt_of_signed (w i) n hn (Host.reduce_andi_all _ init hr hu j e i)

end

theorem of_pre [Cert.Pre_finite_inputs.Facts]
    (x : FVec Ideal Cert.Pre_finite_inputs.S2x256x1024 .f32)
    (urow ucol : IVec Cert.Pre_finite_inputs.S262144 32) (uval : FVec Ideal Cert.Pre_finite_inputs.S262144 .f32)
    (ub : FVec Ideal Cert.Pre_finite_inputs.S4096 .f32)
    (grow gcol : IVec Cert.Pre_finite_inputs.S262144 32) (gval : FVec Ideal Cert.Pre_finite_inputs.S262144 .f32)
    (gb : FVec Ideal Cert.Pre_finite_inputs.S4096 .f32)
    (drow dcol : IVec Cert.Pre_finite_inputs.S262144 32) (dval : FVec Ideal Cert.Pre_finite_inputs.S262144 .f32)
    (db : FVec Ideal Cert.Pre_finite_inputs.S1024 .f32)
    (h : Cert.Pre_finite_inputs.fn (F := Ideal) x urow ucol uval ub grow gcol gval gb drow dcol dval db = fun _ => 1#1) :
    Facts x urow ucol uval ub grow gcol gval gb drow dcol dval db := by
  -- the one bit of the result, with the chain of operations in view: a left-nested conjunction of thirteen reductions
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- peel the conjunction from the outside: the last test first
  obtain ⟨e, hdcol⟩ := andi_at _ _ _ e
  obtain ⟨e, hdrow⟩ := andi_at _ _ _ e
  obtain ⟨e, hgcol⟩ := andi_at _ _ _ e
  obtain ⟨e, hgrow⟩ := andi_at _ _ _ e
  obtain ⟨e, hucol⟩ := andi_at _ _ _ e
  obtain ⟨e, hurow⟩ := andi_at _ _ _ e
  obtain ⟨e, hdb⟩ := andi_at _ _ _ e
  obtain ⟨e, hdval⟩ := andi_at _ _ _ e
  obtain ⟨e, hgb⟩ := andi_at _ _ _ e
  obtain ⟨e, hgval⟩ := andi_at _ _ _ e
  obtain ⟨e, hub⟩ := andi_at _ _ _ e
  obtain ⟨hx, huval⟩ := andi_at _ _ _ e
  exact
    { x := finite_of_all x _ _ _ _ _ hx
      uval := finite_of_all uval _ _ _ _ _ huval
      ub := finite_of_all ub _ _ _ _ _ hub
      gval := finite_of_all gval _ _ _ _ _ hgval
      gb := finite_of_all gb _ _ _ _ _ hgb
      dval := finite_of_all dval _ _ _ _ _ hdval
      db := finite_of_all db _ _ _ _ _ hdb
      urow := inRange_of_all urow 4096 (by norm_num) _ _ _ _ _ hurow
      ucol := inRange_of_all ucol 1024 (by norm_num) _ _ _ _ _ hucol
      grow := inRange_of_all grow 4096 (by norm_num) _ _ _ _ _ hgrow
      gcol := inRange_of_all gcol 1024 (by norm_num) _ _ _ _ _ hgcol
      drow := inRange_of_all drow 1024 (by norm_num) _ _ _ _ _ hdrow
      dcol := inRange_of_all dcol 4096 (by norm_num) _ _ _ _ _ hdcol }

end Cert.SparseMlp.Hyps

end
-- ==== Proof.Bridge.lean ====
/-
  The two spellings of the result agree when every float argument is a real number and every index is in range.

  For reals, a projection through the dense table is the projection entry by entry:
    Σ_a X[t,a] · (Σ { val n | col n = a, row n = o }) = Σ { X[t, col n] · val n | row n = o },
  by distributing X[t,a] over the inner sum and exchanging the two sums (each entry n has exactly one column a).
  On the extended reals this needs the factors to be real (· does not distribute over + at the infinities), which is
  what the finiteness hypotheses give; every intermediate value (projections, the gated activation) is then real too,
  so each stage is carried out in ℝ and read back into the extended reals.
  The outer additions differ only by association.
-/
import proofs.«401864_j62380105007473_3_alg».proof.Proof.Spec

noncomputable section

namespace Cert.SparseMlp

open Idealize.ShloMosaic Idealize.ShloMosaic.ValueIdx

/-! ### Real sums inside the extended reals -/

/-- A finite sum of real numbers, read in the extended reals, is the sum of the readings. -/
theorem coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-! ### The exchange of sums, in ℝ -/

/-- One projection, for real data: summing over the columns `a` the input at `a` times the dense table's entry
    (the values of the entries with column `a` and row `o`) is summing over the entries of row `o` the input at the
    entry's column times the entry's value. Every entry has exactly one column. -/
theorem sum_mul_table_eq {N : Type*} [Fintype N] {I : ℕ} (c r : N → ℕ) (o : ℕ) (val : N → ℝ) (X : Fin I → ℝ)
    (hc : ∀ n, c n < I) :
    ∑ a : Fin I, X a * (∑ n ∈ Finset.univ.filter (fun n => c n = a.val ∧ r n = o), val n)
      = ∑ n ∈ Finset.univ.filter (fun n => r n = o), X ⟨c n, hc n⟩ * val n := by
  simp_rw [Finset.mul_sum, Finset.sum_filter]
  rw [Finset.sum_comm]
  refine Finset.sum_congr rfl fun n _ => ?_
  by_cases hr : r n = o
  · rw [if_pos hr, Finset.sum_eq_single (⟨c n, hc n⟩ : Fin I)]
    · rw [if_pos ⟨rfl, hr⟩]
    · intro b _ hb
      rw [if_neg]
      intro h
      exact hb (Fin.ext h.1.symm)
    · intro h
      exact absurd (Finset.mem_univ _) h
  · rw [if_neg hr]
    refine Finset.sum_eq_zero fun a _ => ?_
    rw [if_neg]
    intro h
    exact hr h.2

/-! ### A projection of real data is real, and both spellings give the same real -/

/-- The projection entry by entry, in ℝ. -/
def linR {T I O : ℕ} (Xr : Fin T → Fin I → ℝ) (row col : SN.Idx → BitVec 32) (vr : SN.Idx → ℝ)
    (br : Fin O → ℝ) (hc : ∀ n, (col n).toNat < I) (t : Fin T) (o : Fin O) : ℝ :=
  (∑ n ∈ Finset.univ.filter (fun n : SN.Idx => (row n).toNat = o.val), Xr t ⟨(col n).toNat, hc n⟩ * vr n) + br o

section
variable {T I O : ℕ} (X : Fin T → Fin I → EReal) (Xr : Fin T → Fin I → ℝ)
  (hX : ∀ t a, X t a = (Xr t a : EReal))
  (row col : SN.Idx → BitVec 32) (val : SN.Idx → EReal) (vr : SN.Idx → ℝ) (hv : ∀ n, val n = (vr n : EReal))
  (bias : Fin O → EReal) (br : Fin O → ℝ) (hb : ∀ o, bias o = (br o : EReal))
  (hc : ∀ n, (col n).toNat < I)

include hX hv hb

/-- Entry by entry. -/
theorem sparseLin_eq_coe (t : Fin T) (o : Fin O) :
    sparseLin X row col val bias t o = ((linR Xr row col vr br hc t o : ℝ) : EReal) := by
  unfold sparseLin linR
  rw [EReal.coe_add, ← hb o, ← coe_sum]
  refine congrArg (· + bias o) (Finset.sum_congr rfl fun n _ => ?_)
  rw [dif_pos (hc n), EReal.coe_mul, hX, hv]

/-- Through the dense table. -/
theorem denseLin_eq_coe (t : Fin T) (o : Fin O) :
    denseLin X (dense row col val) bias t o = ((linR Xr row col vr br hc t o : ℝ) : EReal) := by
  unfold denseLin dense linR
  rw [EReal.coe_add, ← hb o,
    ← sum_mul_table_eq (fun n => (col n).toNat) (fun n => (row n).toNat) o.val vr (Xr t) hc, ← coe_sum]
  refine congrArg (· + bias o) (Finset.sum_congr rfl fun a _ => ?_)
  rw [EReal.coe_mul, ← coe_sum, hX]
  exact congrArg (_ * ·) (Finset.sum_congr rfl fun n _ => hv n)

end

/-! ### The gated activation of reals is real -/

theorem gated_coe (u g : ℝ) :
    gated (u : EReal) (g : EReal) = ((u * (1 + Real.exp (-u))⁻¹ * g : ℝ) : EReal) := by
  unfold gated
  rw [Ideal.logistic_coe, ← EReal.coe_mul, ← EReal.coe_mul]

/-! ### The result -/

theorem kernelOut_eq_refOut (x : SX.Idx → EReal)
    (urow ucol : SN.Idx → BitVec 32) (uval : SN.Idx → EReal) (ub : SH.Idx → EReal)
    (grow gcol : SN.Idx → BitVec 32) (gval : SN.Idx → EReal) (gb : SH.Idx → EReal)
    (drow dcol : SN.Idx → BitVec 32) (dval : SN.Idx → EReal) (db : SD.Idx → EReal)
    (hx : Finite x) (huv : Finite uval) (hub : Finite ub) (hgv : Finite gval) (hgb : Finite gb)
    (hdv : Finite dval) (hdb : Finite db)
    (hur : InRange urow 4096) (huc : InRange ucol 1024) (hgr : InRange grow 4096) (hgc : InRange gcol 1024)
    (hdr : InRange drow 1024) (hdc : InRange dcol 4096) :
    kernelOut x urow ucol uval ub grow gcol gval gb drow dcol dval db
      = refOut x urow ucol uval ub grow gcol gval gb drow dcol dval db := by
  -- the real numbers behind the seven float arguments
  choose xr hxr using hx
  choose uvr huvr using huv
  choose ubr hubr using hub
  choose gvr hgvr using hgv
  choose gbr hgbr using hgb
  choose dvr hdvr using hdv
  choose dbr hdbr using hdb
  -- the input token, in ℝ
  have hX : ∀ t a, tok x t a
      = ((xr (ix3 (⟨t.val / 256, by omega⟩ : Fin 2) (⟨t.val % 256, by omega⟩ : Fin 256) a) : ℝ) : EReal) :=
    fun t a => hxr _
  -- the up and gate projections: one real each, whichever way they are spelled
  have hUd := denseLin_eq_coe (tok x) _ hX urow ucol uval uvr huvr (fun h => ub (ix1 h)) (fun h => ubr (ix1 h))
    (fun h => hubr _) huc
  have hUs := sparseLin_eq_coe (tok x) _ hX urow ucol uval uvr huvr (fun h => ub (ix1 h)) (fun h => ubr (ix1 h))
    (fun h => hubr _) huc
  have hGd := denseLin_eq_coe (tok x) _ hX grow gcol gval gvr hgvr (fun h => gb (ix1 h)) (fun h => gbr (ix1 h))
    (fun h => hgbr _) hgc
  have hGs := sparseLin_eq_coe (tok x) _ hX grow gcol gval gvr hgvr (fun h => gb (ix1 h)) (fun h => gbr (ix1 h))
    (fun h => hgbr _) hgc
  -- the hidden activation: real, and the same both ways
  have hHd : ∀ t h, hiddenDense x urow ucol uval ub grow gcol gval gb t h = ((_ : ℝ) : EReal) := fun t h => by
    unfold hiddenDense
    rw [hUd, hGd, gated_coe]
  have hHs : ∀ t h, hiddenSparse x urow ucol uval ub grow gcol gval gb t h = ((_ : ℝ) : EReal) := fun t h => by
    unfold hiddenSparse
    rw [hUs, hGs, gated_coe]
  -- the down projection of the hidden activation
  have hDd := denseLin_eq_coe (hiddenDense x urow ucol uval ub grow gcol gval gb) _ hHd drow dcol dval dvr hdvr
    (fun d => db (ix1 d)) (fun d => dbr (ix1 d)) (fun d => hdbr _) hdc
  have hDs := sparseLin_eq_coe (hiddenSparse x urow ucol uval ub grow gcol gval gb) _ hHs drow dcol dval dvr hdvr
    (fun d => db (ix1 d)) (fun d => dbr (ix1 d)) (fun d => hdbr _) hdc
  -- the outer additions, up to association
  have key : ∀ t d, kernelVal x urow ucol uval ub grow gcol gval gb drow dcol dval db t d
      = refVal x urow ucol uval ub grow gcol gval gb drow dcol dval db t d := fun t d => by
    unfold kernelVal refVal
    rw [add_assoc, hDs]
    exact congrArg (tok x t d + ·) (hDd t d)
  funext i
  exact key (tokOf i) (i 2)

end Cert.SparseMlp

end
-- ==== Proof.KFrame.lean ====
/-
  The kernel's accumulator, point by point.

  The grid has 2 × 8 points: point t handles the 256 tokens of row block t / 8 and the 512 hidden columns of block t % 8.
  At each point the body updates a 256 × 1024 accumulator by this hidden block's contribution to the down projection;
  at the first hidden block of a row block it first resets the accumulator to zero, and at the last it also writes the
  result block: the input tokens plus the accumulator plus the output bias.

  Here: what each of the three control cases leaves in the accumulator (and, at the last hidden block, in the result
  block) as the body's stored values applied to the point's input blocks; and, by induction on the point, that what the
  accumulator holds after point n is the recursion  reset-and-update at n ≡ 0 (mod 8), update of the previous
  contents otherwise.
-/
import proofs.«401864_j62380105007473_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-! ## What each control case leaves: the accumulator's new contents, and at the last hidden block the result block -/

/-- A middle hidden block: the accumulator holding `acc` is left at its update by this point's blocks. -/
theorem sout_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .f32) (harg11 : arg11.IsWhole) (hc0 : ¬cond0_0 i) (hc1 : ¬cond0_1 i)
    (x0 : Vec F S256x1024 .bf16) (x1 : Vec F S256x1024 .f32) (x2 : Vec F S1024x512 .bf16) (x3 : Vec F S1024x512 .bf16) (x4 : Vec F S512x1024 .bf16) (x5 : Vec F S1x512 .f32) (x6 : Vec F S1x512 .f32) (x7 : Vec F S1x1024 .f32) (xs0 : Vec F S256x1024 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 x0 x2 x5 x3 x6 xs0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S256x1024) hz, View.ld_unit_zero (S := S1024x512) hz, View.ld_unit_zero (S := S512x1024) hz, View.ld_unit_zero (S := S1x512) hz, View.ld_unit_zero (S := S1x1024) hz, View.readCov_unit_zero (S := S256x1024) _ hz]

/-- The first hidden block: the accumulator is reset, then updated from the reset value. -/
theorem sout_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .f32) (harg11 : arg11.IsWhole) (hc0 : cond0_0 i) (hc1 : ¬cond0_1 i)
    (x0 : Vec F S256x1024 .bf16) (x1 : Vec F S256x1024 .f32) (x2 : Vec F S1024x512 .bf16) (x3 : Vec F S1024x512 .bf16) (x4 : Vec F S512x1024 .bf16) (x5 : Vec F S1x512 .f32) (x6 : Vec F S1x512 .f32) (x7 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay3 x0 x2 x5 x3 x6 (k0_pay2 (F := F)) x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S256x1024) hz, View.readCov_unit_zero (S := S256x1024) _ hz]
  simp only [View.readAt_eq_ld, harg2.read_unread, harg3.read_unread, harg4.read_unread, harg5.read_unread, harg6.read_unread, harg7.read_unread, harg8.read_unread, harg9.read_unread, harg11.read_unread, View.ld_unit_zero (S := S256x1024) hz, View.ld_unit_zero (S := S1024x512) hz, View.ld_unit_zero (S := S512x1024) hz, View.ld_unit_zero (S := S1x512) hz, View.ld_unit_zero (S := S1x1024) hz, View.readCov_unit_zero (S := S256x1024) _ hz]

/-- The last hidden block: the accumulator is updated as at a middle block, -/
theorem sout_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .f32) (harg11 : arg11.IsWhole) (hc0 : ¬cond0_0 i) (hc1 : cond0_1 i)
    (x0 : Vec F S256x1024 .bf16) (x1 : Vec F S256x1024 .f32) (x2 : Vec F S1024x512 .bf16) (x3 : Vec F S1024x512 .bf16) (x4 : Vec F S512x1024 .bf16) (x5 : Vec F S1x512 .f32) (x6 : Vec F S1x512 .f32) (x7 : Vec F S1x1024 .f32) (xs0 : Vec F S256x1024 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 x0 x2 x5 x3 x6 xs0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S256x1024) hz, View.ld_unit_zero (S := S1024x512) hz, View.ld_unit_zero (S := S512x1024) hz, View.ld_unit_zero (S := S1x512) hz, View.ld_unit_zero (S := S1x1024) hz, View.readCov_unit_zero (S := S256x1024) _ hz]

/-- and the result block is the input tokens plus the updated accumulator plus the output bias. -/
theorem out_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .f32) (harg11 : arg11.IsWhole) (hc0 : ¬cond0_0 i) (hc1 : cond0_1 i)
    (x0 : Vec F S256x1024 .bf16) (x1 : Vec F S256x1024 .f32) (x2 : Vec F S1024x512 .bf16) (x3 : Vec F S1024x512 .bf16) (x4 : Vec F S512x1024 .bf16) (x5 : Vec F S1x512 .f32) (x6 : Vec F S1x512 .f32) (x7 : Vec F S1x1024 .f32) (xs0 : Vec F S256x1024 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 x1 (k0_pay3 x0 x2 x5 x3 x6 xs0 x4) x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S256x1024) hz, View.ld_unit_zero (S := S1024x512) hz, View.ld_unit_zero (S := S512x1024) hz, View.ld_unit_zero (S := S1x512) hz, View.ld_unit_zero (S := S1x1024) hz, View.readCov_unit_zero (S := S256x1024) _ hz]

/-! ## The accumulator point by point -/

variable (m : (ℓ : Loc nD τ sig) → Buf (Elt F) ℓ)

/-- The accumulator's update at point `t`, from the accumulator's value `a`: the update payload of this point's blocks
    (tokens, up and gate tables and biases, down table). -/
abbrev upd (c : Dev nD) (t : Fin cfg0.N) (a : Vec F S256x1024 .f32) : Vec F S256x1024 .f32 :=
  k0_pay3 (iblk m c 0 t : Vec F S256x1024 .bf16) (iblk m c 2 t : Vec F S1024x512 .bf16) (iblk m c 5 t : Vec F S1x512 .f32)
    (iblk m c 3 t : Vec F S1024x512 .bf16) (iblk m c 6 t : Vec F S1x512 .f32) a (iblk m c 4 t : Vec F S512x1024 .bf16)

/-- The accumulator after point `n`: reset and updated at the first of each run of eight hidden blocks, updated from the
    point before otherwise. -/
def acc (c : Dev nD) : (n : ℕ) → n < cfg0.N → Vec F S256x1024 .f32
  | 0, h => upd m c ⟨0, h⟩ (k0_pay2 (F := F))
  | n + 1, h => if (n + 1) % 8 = 0 then upd m c ⟨n + 1, h⟩ (k0_pay2 (F := F))
      else upd m c ⟨n + 1, h⟩ (acc c n (Nat.lt_of_succ_lt h))

theorem acc_reset (c : Dev nD) (t : Fin cfg0.N) (h0 : t.val % 8 = 0) :
    acc m c t.val t.isLt = upd m c t (k0_pay2 (F := F)) := by
  obtain ⟨n, hn⟩ := t
  cases n with
  | zero => rfl
  | succ n => exact (if_pos h0).trans rfl

theorem acc_step (c : Dev nD) (t : Fin cfg0.N) (h0 : ¬t.val % 8 = 0) :
    acc m c t.val t.isLt = upd m c t (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-- What the generated run says the scratch holds after point `n` is that recursion. -/
theorem outsAt_snd (c : Dev nD) : ∀ (n : ℕ) (h : n < cfg0.N), (outsAt0 m c n h).2 = acc m c n h
  | 0, h => by
    have h0 : (⟨0, h⟩ : Fin cfg0.N).val % 8 = 0 := rfl
    have h1 : ¬(⟨0, h⟩ : Fin cfg0.N).val % 8 = 7 := fun e => absurd (show (0 : ℕ) % 8 = 7 from e) (by decide)
    rw [outsAt0_A m c ⟨0, h⟩ h0 h1]
    dsimp only
    exact sout_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)
  | n + 1, h => by
    have hN : cfg0.N = 16 := N_0
    by_cases h0 : (n + 1) % 8 = 0
    · have h1 : ¬(n + 1) % 8 = 7 := by omega
      rw [outsAt0_A m c ⟨n + 1, h⟩ h0 h1]
      dsimp only
      refine (sout_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)).trans ?_
      exact (acc_reset m c ⟨n + 1, h⟩ h0).symm
    · have ih := outsAt_snd c n (Nat.lt_of_succ_lt h)
      by_cases h1 : (n + 1) % 8 = 7
      · rw [outsAt0_C m c ⟨n + 1, h⟩ h0 h1]
        dsimp only
        refine (sout_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _).trans ?_
        refine Eq.trans ?_ (acc_step m c ⟨n + 1, h⟩ h0).symm
        show upd m c ⟨n + 1, h⟩ (outsAt0 m c n _).2 = upd m c ⟨n + 1, h⟩ (acc m c n _)
        rw [ih]
      · rw [outsAt0_B m c ⟨n + 1, h⟩ h0 h1]
        dsimp only
        refine (sout_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _).trans ?_
        refine Eq.trans ?_ (acc_step m c ⟨n + 1, h⟩ h0).symm
        show upd m c ⟨n + 1, h⟩ (outsAt0 m c n _).2 = upd m c ⟨n + 1, h⟩ (acc m c n _)
        rw [ih]

/-- At the last hidden block of a run the output's staging buffer holds the result payload of the input tokens, the
    accumulator after this point, and the output bias. -/
theorem outsAt_fst (c : Dev nD) (t : Fin cfg0.N) (h7 : t.val % 8 = 7) :
    (outsAt0 m c t.val t.isLt).1
      = k0_pay1 (iblk m c 1 t : Vec F S256x1024 .f32) (acc m c t.val t.isLt) (iblk m c 7 t : Vec F S1x1024 .f32) := by
  have h0 : ¬t.val % 8 = 0 := by omega
  rw [outsAt0_C m c t h0 h7]
  dsimp only
  refine (out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) (iblk m c 7 t) _).trans ?_
  rw [acc_step m c t h0]
  have hp : t.val - 1 < cfg0.N := Nat.lt_of_le_of_lt (Nat.sub_le _ _) t.isLt
  show k0_pay1 _ (upd m c t (outsAt0 m c (t.val - 1) hp).2) _ = k0_pay1 _ (upd m c t (acc m c (t.val - 1) hp)) _
  rw [outsAt_snd m c (t.val - 1) hp]

end Cert.KernelIdeal.Value

end
-- ==== Proof.KBlocks.lean ====
/-
  Where each window's block sits in its array: point t of the 2 × 8 grid sees the 256 tokens of row block t / 8 (both
  copies of the input and the result), the 512 hidden columns of block t % 8 (up and gate tables and biases, the rows of
  the down table), and the whole output bias. An entry of a block, read through the window, is the array's entry at the
  block's offset plus the entry's coordinates.
-/
import proofs.«401864_j62380105007473_3_alg».proof.Proof.KFrame
import proofs.«401864_j62380105007473_3_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.SparseMlp

variable (m : (ℓ : Loc nD τ sig) → Buf (Elt Ideal) ℓ)

/-! ## The arrays the pipeline reads, and where each window's block sits in its array -/

/-- The tokens (converted and as they are), the up, gate and down tables, and the three biases as one-row matrices. -/
abbrev xA (c : Dev nD) : S512x1024.Idx → EReal := V m c main_v1
abbrev xF (c : Dev nD) : S512x1024.Idx → EReal := V m c main_v0
abbrev wU (c : Dev nD) : S1024x4096.Idx → EReal := V m c main_v24
abbrev wG (c : Dev nD) : S1024x4096.Idx → EReal := V m c main_v25
abbrev wD (c : Dev nD) : S4096x1024.Idx → EReal := V m c main_v38
abbrev bU (c : Dev nD) : S1x4096.Idx → EReal := V m c main_v39
abbrev bG (c : Dev nD) : S1x4096.Idx → EReal := V m c main_v40
abbrev bD (c : Dev nD) : S1x1024.Idx → EReal := V m c main_v41

/-- The block indices of the nine windows at point `t`: row block `t / 8`, hidden block `t % 8`. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = t.val % 8 ∧ win0_4.index t (1 : Fin 2) = 0
    ∧ win0_5.index t (0 : Fin 2) = 0 ∧ win0_5.index t (1 : Fin 2) = t.val % 8
    ∧ win0_6.index t (0 : Fin 2) = 0 ∧ win0_6.index t (1 : Fin 2) = t.val % 8
    ∧ win0_7.index t (0 : Fin 2) = 0 ∧ win0_7.index t (1 : Fin 2) = 0
    ∧ win0_8.index t (0 : Fin 2) = t.val / 8 ∧ win0_8.index t (1 : Fin 2) = 0 :=
  (by decide +kernel : ∀ t : Fin grid0.N, _)

/-- Token `p` of point `t`'s row block, and hidden column `j` of its hidden block, in the whole arrays. -/
def rowOf (t : Fin cfg0.N) (p : Fin 256) : Fin 512 :=
  ⟨256 * (t.val / 8) + p.val, by have := t.isLt; have hN : cfg0.N = 16 := N_0; omega⟩
def colOf (t : Fin cfg0.N) (j : Fin 512) : Fin 4096 :=
  ⟨512 * (t.val % 8) + j.val, by omega⟩

theorem blk0 (c : Dev nD) (t : Fin cfg0.N) (p : Fin 256) (a : Fin 1024) :
    (iblk m c 0 t : Vec Ideal S256x1024 .bf16) (ix2 p a) = xA m c (ix2 (rowOf t p) a) := by
  obtain ⟨e0, e1, -⟩ := idx_facts t
  show V m c main_v1 (((cfg0.win 0).blk t).view.emb (ix2 p a)) = V m c main_v1 _
  congr 1; funext d; apply Fin.ext
  match d with
  | ⟨0, _⟩ => show win0_0.index t (0 : Fin 2) * 256 + 1 * p.val = 256 * (t.val / 8) + p.val; rw [e0]; omega
  | ⟨1, _⟩ => show win0_0.index t (1 : Fin 2) * 1024 + 1 * a.val = a.val; rw [e1]; omega

theorem blk1 (c : Dev nD) (t : Fin cfg0.N) (p : Fin 256) (q : Fin 1024) :
    (iblk m c 1 t : Vec Ideal S256x1024 .f32) (ix2 p q) = xF m c (ix2 (rowOf t p) q) := by
  obtain ⟨-, -, e0, e1, -⟩ := idx_facts t
  show V m c main_v0 (((cfg0.win 1).blk t).view.emb (ix2 p q)) = V m c main_v0 _
  congr 1; funext d; apply Fin.ext
  match d with
  | ⟨0, _⟩ => show win0_1.index t (0 : Fin 2) * 256 + 1 * p.val = 256 * (t.val / 8) + p.val; rw [e0]; omega
  | ⟨1, _⟩ => show win0_1.index t (1 : Fin 2) * 1024 + 1 * q.val = q.val; rw [e1]; omega

theorem blk2 (c : Dev nD) (t : Fin cfg0.N) (a : Fin 1024) (j : Fin 512) :
    (iblk m c 2 t : Vec Ideal S1024x512 .bf16) (ix2 a j) = wU m c (ix2 a (colOf t j)) := by
  obtain ⟨-, -, -, -, e0, e1, -⟩ := idx_facts t
  show V m c main_v24 (((cfg0.win 2).blk t).view.emb (ix2 a j)) = V m c main_v24 _
  congr 1; funext d; apply Fin.ext
  match d with
  | ⟨0, _⟩ => show win0_2.index t (0 : Fin 2) * 1024 + 1 * a.val = a.val; rw [e0]; omega
  | ⟨1, _⟩ => show win0_2.index t (1 : Fin 2) * 512 + 1 * j.val = 512 * (t.val % 8) + j.val; rw [e1]; omega

theorem blk3 (c : Dev nD) (t : Fin cfg0.N) (a : Fin 1024) (j : Fin 512) :
    (iblk m c 3 t : Vec Ideal S1024x512 .bf16) (ix2 a j) = wG m c (ix2 a (colOf t j)) := by
  obtain ⟨-, -, -, -, -, -, e0, e1, -⟩ := idx_facts t
  show V m c main_v25 (((cfg0.win 3).blk t).view.emb (ix2 a j)) = V m c main_v25 _
  congr 1; funext d; apply Fin.ext
  match d with
  | ⟨0, _⟩ => show win0_3.index t (0 : Fin 2) * 1024 + 1 * a.val = a.val; rw [e0]; omega
  | ⟨1, _⟩ => show win0_3.index t (1 : Fin 2) * 512 + 1 * j.val = 512 * (t.val % 8) + j.val; rw [e1]; omega

theorem blk4 (c : Dev nD) (t : Fin cfg0.N) (j : Fin 512) (q : Fin 1024) :
    (iblk m c 4 t : Vec Ideal S512x1024 .bf16) (ix2 j q) = wD m c (ix2 (colOf t j) q) := by
  obtain ⟨-, -, -, -, -, -, -, -, e0, e1, -⟩ := idx_facts t
  show V m c main_v38 (((cfg0.win 4).blk t).view.emb (ix2 j q)) = V m c main_v38 _
  congr 1; funext d; apply Fin.ext
  match d with
  | ⟨0, _⟩ => show win0_4.index t (0 : Fin 2) * 512 + 1 * j.val = 512 * (t.val % 8) + j.val; rw [e0]; omega
  | ⟨1, _⟩ => show win0_4.index t (1 : Fin 2) * 1024 + 1 * q.val = q.val; rw [e1]; omega

theorem blk5 (c : Dev nD) (t : Fin cfg0.N) (j : Fin 512) :
    (iblk m c 5 t : Vec Ideal S1x512 .f32) (ix2 (0 : Fin 1) j) = bU m c (ix2 (0 : Fin 1) (colOf t j)) := by
  obtain ⟨-, -, -, -, -, -, -, -, -, -, e0, e1, -⟩ := idx_facts t
  show V m c main_v39 (((cfg0.win 5).blk t).view.emb (ix2 (0 : Fin 1) j)) = V m c main_v39 _
  congr 1; funext d; apply Fin.ext
  match d with
  | ⟨0, _⟩ => show win0_5.index t (0 : Fin 2) * 1 + 1 * 0 = 0; rw [e0]
  | ⟨1, _⟩ => show win0_5.index t (1 : Fin 2) * 512 + 1 * j.val = 512 * (t.val % 8) + j.val; rw [e1]; omega

theorem blk6 (c : Dev nD) (t : Fin cfg0.N) (j : Fin 512) :
    (iblk m c 6 t : Vec Ideal S1x512 .f32) (ix2 (0 : Fin 1) j) = bG m c (ix2 (0 : Fin 1) (colOf t j)) := by
  obtain ⟨-, -, -, -, -, -, -, -, -, -, -, -, e0, e1, -⟩ := idx_facts t
  show V m c main_v40 (((cfg0.win 6).blk t).view.emb (ix2 (0 : Fin 1) j)) = V m c main_v40 _
  congr 1; funext d; apply Fin.ext
  match d with
  | ⟨0, _⟩ => show win0_6.index t (0 : Fin 2) * 1 + 1 * 0 = 0; rw [e0]
  | ⟨1, _⟩ => show win0_6.index t (1 : Fin 2) * 512 + 1 * j.val = 512 * (t.val % 8) + j.val; rw [e1]; omega

theorem blk7 (c : Dev nD) (t : Fin cfg0.N) (q : Fin 1024) :
    (iblk m c 7 t : Vec Ideal S1x1024 .f32) (ix2 (0 : Fin 1) q) = bD m c (ix2 (0 : Fin 1) q) := by
  obtain ⟨-, -, -, -, -, -, -, -, -, -, -, -, -, -, e0, e1, -⟩ := idx_facts t
  show V m c main_v41 (((cfg0.win 7).blk t).view.emb (ix2 (0 : Fin 1) q)) = V m c main_v41 _
  congr 1; funext d; apply Fin.ext
  match d with
  | ⟨0, _⟩ => show win0_7.index t (0 : Fin 2) * 1 + 1 * 0 = 0; rw [e0]
  | ⟨1, _⟩ => show win0_7.index t (1 : Fin 2) * 1024 + 1 * q.val = q.val; rw [e1]; omega

end Cert.KernelIdeal.Value

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KPayload.lean ====
/-
  The three values the kernel's body stores, read at an index (p, q) of a block, at the extended reals.

  * The reset of the accumulator: a zero splat (cast to its own shape), so zero everywhere.
  * The update of the accumulator. With A the 256 × 1024 block of tokens, Wu and Wg the 1024 × 512 blocks of the "up" and
    "gate" tables, bu and bg their 1 × 512 bias rows, and Wd the 512 × 1024 block of the "down" table, the body forms
        u = A · Wu + bu,   g = A · Wg + bg      (each product into a zero accumulator; the bias row repeated over the tokens),
        h = (u · logistic u) · g                  (pointwise, then narrowed: the identity on the extended reals),
        acc' = acc + h · Wd                       (again a product into a zero accumulator).
    Read at (p, q) this is  acc (p, q) + Σ_j gated (u (p, j)) (g (p, j)) · Wd (j, q)  with
    u (p, j) = Σ_a A (p, a) · Wu (a, j) + bu (0, j)  and likewise g. The proof reads each stage at an index by one small
    lemma: a projection (`proj_apply`), the activation (`act_apply`, definitional), the down product added to the old
    accumulator (`down_apply`); a cast to the same shape is the identity, a row repeated over many rows reads its one row,
    and a plain matrix product into zero reads the sum over the contracted coordinate.
  * The result block: (the input token's entry + the accumulator's) + the output bias row at q.
-/
import proofs.«401864_j62380105007473_3_alg».proof.Proof.Gen.KernelIdeal.Skeleton
import proofs.«401864_j62380105007473_3_alg».proof.Proof.LibPlainDot
import proofs.«401864_j62380105007473_3_alg».proof.Proof.Spec
import Idealize.ShloMosaic.Lib.ValueLayout
import Idealize.ShloMosaic.PureOps.Ideal.Laws

noncomputable section

namespace Cert.KernelIdeal.Payload

open Cert.KernelIdeal Cert.KernelIdeal.Gen Cert.SparseMlp
open Idealize.ShloMosaic Idealize.ShloMosaic.ValueIdx

/-! ## The stages of the update, each at an index -/

/-- One projection of the block: the product of the token block and a weight block into a zero accumulator, plus the
    bias row repeated over the tokens, at (p, j): the sum over the 1024 features plus the bias of column j. -/
theorem proj_apply (A : FVec Ideal S256x1024 .bf16) (W : FVec Ideal S1024x512 .bf16) (b : FVec Ideal S1x512 .f32)
    (p : Fin 256) (j : Fin 512) :
    addf (matmul dot_S256x1024_S1024x512_S256x512_1_0_0_1_n_n none
            (shapeCast S256x1024 A shapeCasts_S256x1024_S256x1024) (shapeCast S1024x512 W shapeCasts_S1024x512_S1024x512)
            (constant (F := Ideal) S256x512 .f32 0x00000000#32))
         (broadcastTo S256x512 (shapeCast S1x512 b shapeCasts_S1x512_S1x512) broadcasts_S1x512_S256x512) (ix2 p j)
      = (∑ a : Fin 1024, A (ix2 p a) * W (ix2 a j)) + b (ix2 (0 : Fin 1) j) := by
  rw [addf_apply, shapeCast_self, shapeCast_self, shapeCast_self, broadcastTo_1b_ab_apply]
  rw [Cert.LibPlainDot.matmul_zero_apply dot_S256x1024_S1024x512_S256x512_1_0_0_1_n_n rfl none A W p j]

/-- The gated activation of two projections, narrowed to the next product's input format (the identity on the extended
    reals), at an index: `gated` of the two entries. -/
theorem act_apply (u g : FVec Ideal S256x512 .f32) (i : S256x512.Idx) :
    truncf .bf16 (mulf (mulf u (logistic u)) g) bitsLt_bf16_f32 i = gated (u i) (g i) := rfl

/-- The down product of an activation block and a weight block into a zero accumulator, added to the old accumulator,
    at (p, q): the old entry plus the sum over the block's 512 hidden columns. -/
theorem down_apply (acc : FVec Ideal S256x1024 .f32) (H : FVec Ideal S256x512 .bf16) (W : FVec Ideal S512x1024 .bf16)
    (p : Fin 256) (q : Fin 1024) :
    shapeCast S256x1024
        (addf acc (matmul dot_S256x512_S512x1024_S256x1024_1_0_0_1_n_n none H
          (shapeCast S512x1024 W shapeCasts_S512x1024_S512x1024) (constant (F := Ideal) S256x1024 .f32 0x00000000#32)))
        shapeCasts_S256x1024_S256x1024 (ix2 p q)
      = acc (ix2 p q) + ∑ j : Fin 512, H (ix2 p j) * W (ix2 j q) := by
  rw [shapeCast_self, addf_apply, shapeCast_self]
  rw [Cert.LibPlainDot.matmul_zero_apply dot_S256x512_S512x1024_S256x1024_1_0_0_1_n_n rfl none H W p q]

/-! ## The three stored values -/

theorem reset_apply (p : Fin 256) (q : Fin 1024) : k0_pay2 (F := Ideal) (ix2 p q) = 0 := by
  unfold k0_pay2
  refine (congrFun (shapeCast_self _ _) (ix2 p q)).trans ?_
  exact Ideal.ofBits_zero_f32

theorem update_apply (v3 : Vec Ideal S256x1024 .bf16) (v5 : Vec Ideal S1024x512 .bf16) (v8 : Vec Ideal S1x512 .f32)
    (v12 : Vec Ideal S1024x512 .bf16) (v15 : Vec Ideal S1x512 .f32) (v23 : Vec Ideal S256x1024 .f32)
    (v24 : Vec Ideal S512x1024 .bf16) (p : Fin 256) (q : Fin 1024) :
    k0_pay3 v3 v5 v8 v12 v15 v23 v24 (ix2 p q)
      = v23 (ix2 p q) + ∑ j : Fin 512,
          gated ((∑ a : Fin 1024, v3 (ix2 p a) * v5 (ix2 a j)) + v8 (ix2 (0 : Fin 1) j))
                ((∑ a : Fin 1024, v3 (ix2 p a) * v12 (ix2 a j)) + v15 (ix2 (0 : Fin 1) j))
            * v24 (ix2 j q) := by
  unfold k0_pay3
  -- the outer cast, the sum with the old accumulator and the down product
  refine (down_apply v23 _ v24 p q).trans ?_
  refine congrArg (fun s => v23 (ix2 p q) + s) ?_
  refine Finset.sum_congr rfl fun j _ => ?_
  refine congrArg (fun h => h * v24 (ix2 j q)) ?_
  -- the activation at (p, j), then its two projections
  refine (act_apply _ _ (ix2 p j)).trans ?_
  exact congrArg₂ gated (proj_apply v3 v5 v8 p j) (proj_apply v3 v12 v15 p j)

theorem result_apply (v34 v36 : Vec Ideal S256x1024 .f32) (v38 : Vec Ideal S1x1024 .f32) (p : Fin 256) (q : Fin 1024) :
    k0_pay1 v34 v36 v38 (ix2 p q) = (v34 (ix2 p q) + v36 (ix2 p q)) + v38 (ix2 (0 : Fin 1) q) := by
  unfold k0_pay1
  show (shapeCast S256x1024 v34 shapeCasts_S256x1024_S256x1024 (ix2 p q) + v36 (ix2 p q))
      + broadcastTo S256x1024 (shapeCast S1x1024 v38 shapeCasts_S1x1024_S1x1024) broadcasts_S1x1024_S256x1024 (ix2 p q) = _
  rw [shapeCast_self, broadcastTo_1b_ab_apply, shapeCast_self]

end Cert.KernelIdeal.Payload

end
-- ==== Proof.KValue.lean ====
/-
  The kernel's result array, index by index.

  Reading each input block where its window puts it, the accumulator's update at point t adds, for token T and output
  feature q, the block term: the sum over the 512 hidden columns h of hidden block t % 8 of  hidden(T, h) · down(h, q),
  where hidden is the gated activation of the two projections of token T. By induction on the point the accumulator after
  point t holds the sum of the block terms of the hidden blocks 0 … t % 8, so at the last hidden block the result block is
  token + (all eight block terms) + bias. The result blocks of the two row blocks tile the result array, the program's
  last line reshapes it to 2 × 256 tokens, and the eight block terms together are the sum over all 4096 hidden columns.
-/
import proofs.«401864_j62380105007473_3_alg».proof.Proof.KBlocks
import proofs.«401864_j62380105007473_3_alg».proof.Proof.KPayload
import proofs.«401864_j62380105007473_3_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.SparseMlp

variable (m : (ℓ : Loc nD τ sig) → Buf (Elt Ideal) ℓ)

/-! ## The accumulator's update and contents at an index -/

/-- A projection of token `T` at hidden column `h` through a table, plus the column's bias. -/
def proj (X : S512x1024.Idx → EReal) (W : S1024x4096.Idx → EReal) (B : S1x4096.Idx → EReal) (T : Fin 512) (h : Fin 4096) : EReal :=
  (∑ a : Fin 1024, X (ix2 T a) * W (ix2 a h)) + B (ix2 (0 : Fin 1) h)

/-- The hidden activation of token `T` at column `h`. -/
def hid (c : Dev nD) (T : Fin 512) (h : Fin 4096) : EReal :=
  gated (proj (xA m c) (wU m c) (bU m c) T h) (proj (xA m c) (wG m c) (bG m c) T h)

/-- Hidden block `k`'s term of the down projection of token `T` at output feature `q`. -/
def blockTerm (c : Dev nD) (T : Fin 512) (q : Fin 1024) (k : ℕ) : EReal :=
  if hk : k < 8 then
    ∑ j : Fin 512, hid m c T (⟨512 * k + j.val, by omega⟩ : Fin 4096) * wD m c (ix2 (⟨512 * k + j.val, by omega⟩ : Fin 4096) q)
  else 0

/-- The update at point `t` adds the block term of hidden block `t % 8`. -/
theorem upd_apply (c : Dev nD) (t : Fin cfg0.N) (a : Vec Ideal S256x1024 .f32) (p : Fin 256) (q : Fin 1024) :
    upd m c t a (ix2 p q) = a (ix2 p q) + blockTerm m c (rowOf t p) q (t.val % 8) := by
  refine (Payload.update_apply (iblk m c 0 t) (iblk m c 2 t) (iblk m c 5 t) (iblk m c 3 t) (iblk m c 6 t) a (iblk m c 4 t) p q).trans ?_
  congr 1
  unfold blockTerm
  rw [dif_pos (Nat.mod_lt _ (by decide : 0 < 8))]
  refine Finset.sum_congr rfl fun j _ => ?_
  unfold hid proj
  simp only [blk0 m c t, blk2 m c t, blk3 m c t, blk4 m c t, blk5 m c t, blk6 m c t]
  rfl

/-- After point `n` the accumulator holds the block terms of the hidden blocks `0 … n % 8` of its row block. -/
theorem acc_apply (c : Dev nD) : ∀ (n : ℕ) (h : n < cfg0.N) (p : Fin 256) (q : Fin 1024),
    acc m c n h (ix2 p q) = ∑ k ∈ Finset.range (n % 8 + 1), blockTerm m c (rowOf ⟨n, h⟩ p) q k
  | 0, h, p, q => by
    rw [acc_reset m c ⟨0, h⟩ rfl, upd_apply, Payload.reset_apply, zero_add]
    show _ = ∑ k ∈ Finset.range 1, _
    rw [Finset.sum_range_one]
    rfl
  | n + 1, h, p, q => by
    have hN : cfg0.N = 16 := N_0
    by_cases h0 : (n + 1) % 8 = 0
    · rw [acc_reset m c ⟨n + 1, h⟩ h0, upd_apply, Payload.reset_apply, zero_add]
      show blockTerm m c _ q ((n + 1) % 8) = _
      rw [h0, Finset.sum_range_one]
    · rw [acc_step m c ⟨n + 1, h⟩ h0, upd_apply]
      show acc m c n _ (ix2 p q) + blockTerm m c _ q ((n + 1) % 8) = _
      rw [acc_apply c n (Nat.lt_of_succ_lt h) p q]
      have e1 : (n + 1) % 8 = n % 8 + 1 := by omega
      have e2 : rowOf ⟨n + 1, h⟩ p = rowOf ⟨n, Nat.lt_of_succ_lt h⟩ p := Fin.ext (by show 256 * ((n + 1) / 8) + p.val = 256 * (n / 8) + p.val; omega)
      rw [e1, e2]
      exact (Finset.sum_range_succ _ (n % 8 + 1)).symm

/-! ## The result array of the pipeline -/

/-- The result array as one function of the arrays the pipeline reads. -/
def G (c : Dev nD) : S512x1024.Idx → EReal := fun i =>
  (xF m c (ix2 (i 0) (i 1)) + ∑ k ∈ Finset.range 8, blockTerm m c (i 0) (i 1) k) + bD m c (ix2 (0 : Fin 1) (i 1))

/-- What a last hidden block writes back is its block of that function. -/
theorem flushed_eq (c : Dev nD) (t : Fin cfg0.N) (hf : (cfg0.win 8).flush t = true) :
    (dats m 0 c).flushed 8 t = ((cfg0.win 8).blk t).view.read (Elt Ideal) (G m c) := by
  have h7 : t.val % 8 = 7 := (flush0_8 t).mp hf
  show (cfg0.win 8).cut (grid0.coords t) ((dats m 0 c).after 8 t) = _
  rw [after0_8, outsAt_fst m c t h7]
  funext y
  obtain ⟨p, q, rfl⟩ : ∃ (p : Fin 256) (q : Fin 1024), y = ix2 p q := ⟨y 0, y 1, eq_ix2 y⟩
  show k0_pay1 (iblk m c 1 t) (acc m c t.val t.isLt) (iblk m c 7 t) (ix2 p q) = G m c (((cfg0.win 8).blk t).view.emb (ix2 p q))
  refine (Payload.result_apply (iblk m c 1 t) (acc m c t.val t.isLt) (iblk m c 7 t) p q).trans ?_
  rw [blk1 m c t, blk7 m c t, acc_apply m c t.val t.isLt p q, h7]
  obtain ⟨-, -, -, -, -, -, -, -, -, -, -, -, -, -, -, -, e0, e1⟩ := idx_facts t
  have hemb : ((cfg0.win 8).blk t).view.emb (ix2 p q) = ix2 (rowOf t p) q := by
    funext d; apply Fin.ext
    match d with
    | ⟨0, _⟩ => show win0_8.index t (0 : Fin 2) * 256 + 1 * p.val = 256 * (t.val / 8) + p.val; rw [e0]; omega
    | ⟨1, _⟩ => show win0_8.index t (1 : Fin 2) * 1024 + 1 * q.val = q.val; rw [e1]; omega
  rw [hemb]
  rfl

theorem mem_blk8 (t : Fin cfg0.N) (i : S512x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v42).slice (win0_8.rect t)).set ↔ _
  rw [View.set_slice_whole, Rect.mem_set_unit]
  exact Iff.rfl

/-- Every index of the result array is in the block the last hidden block of its row block writes back. -/
theorem cover8 (i : S512x1024.Idx) :
    ∃ t : Fin cfg0.N, (cfg0.win 8).flush t = true ∧ i ∈ ((cfg0.win 8).blk t).view.set := by
  have h0 : (i 0).val < 512 := (i 0).isLt
  have h1 : (i 1).val < 1024 := (i 1).isLt
  have hN : cfg0.N = 16 := N_0
  have ht : 8 * ((i 0).val / 256) + 7 < cfg0.N := by omega
  refine ⟨⟨8 * ((i 0).val / 256) + 7, ht⟩, (flush0_8 _).mpr (by show (8 * ((i 0).val / 256) + 7) % 8 = 7; omega), ?_⟩
  rw [mem_blk8]
  obtain ⟨-, -, -, -, -, -, -, -, -, -, -, -, -, -, -, -, e0, e1⟩ := idx_facts ⟨8 * ((i 0).val / 256) + 7, ht⟩
  intro a
  match a with
  | ⟨0, _⟩ =>
    show win0_8.index _ (0 : Fin 2) * 256 ≤ (i 0).val ∧ (i 0).val < win0_8.index _ (0 : Fin 2) * 256 + 256
    rw [e0]
    show (8 * ((i 0).val / 256) + 7) / 8 * 256 ≤ (i 0).val ∧ (i 0).val < (8 * ((i 0).val / 256) + 7) / 8 * 256 + 256
    omega
  | ⟨1, _⟩ =>
    show win0_8.index _ (1 : Fin 2) * 1024 ≤ (i 1).val ∧ (i 1).val < win0_8.index _ (1 : Fin 2) * 1024 + 1024
    rw [e1]
    omega

/-- The result array after the run. -/
theorem final8 (c : Dev nD) : (dats m 0 c).arrAt 8 cfg0.N = G m c :=
  (dats m 0 c).arrAt_eq_of_cover 8 (G m c) (flushed_eq m c) cover8

/-! ## The program's last line -/

/-- The program's result: the pipeline's result array reshaped to 2 × 256 tokens. -/
theorem result_arr (c : Dev nD) :
    Pipeline.afterTail₀ cfgs (dats m) 0 (V0 m) [hostOps1] c main_v43
      = shapeCast S2x256x1024 (G m c) shapeCasts_S512x1024_S2x256x1024 := by
  unfold Pipeline.afterTail₀
  show StableHlo.after hostOps1 _ (Proc.devRef .tc main_v43) = _
  after_results
  funext i
  have e : Pipeline.withArrays spec0 c (V0 m c) (fun w => (dats m 0 c).arrAt w cfg0.N) (Proc.devRef .tc main_v42) = G m c :=
    (Pipeline.withArrays_arr spec0 launch0.win.arr_inj c _ _ 8).trans (final8 m c)
  show shapeCast S2x256x1024 (Pipeline.withArrays spec0 c (V0 m c) (fun w => (dats m 0 c).arrAt w cfg0.N) (Proc.devRef .tc main_v42)) shapeCasts_S512x1024_S2x256x1024 i = _
  rw [e]

/-- Eight blocks of 512 hidden columns are the 4096 hidden columns. -/
theorem sum_blocks (f : Fin 4096 → EReal) :
    ∑ k ∈ Finset.range 8, (if hk : k < 8 then ∑ j : Fin 512, f (⟨512 * k + j.val, by omega⟩ : Fin 4096) else 0)
      = ∑ h : Fin 4096, f h := by
  rw [Finset.sum_range]
  have e1 : ∀ k : Fin 8, (if hk : k.val < 8 then ∑ j : Fin 512, f (⟨512 * k.val + j.val, by omega⟩ : Fin 4096) else 0)
      = ∑ j : Fin 512, f (⟨512 * k.val + j.val, by have := k.isLt; omega⟩ : Fin 4096) := fun k => dif_pos k.isLt
  rw [Finset.sum_congr rfl fun k _ => e1 k]
  rw [← Fintype.sum_prod_type' (fun (k : Fin 8) (j : Fin 512) => f (⟨512 * k.val + j.val, by have := k.isLt; omega⟩ : Fin 4096))]
  exact Fintype.sum_equiv (finProdFinEquiv (m := 8) (n := 512)) _ (fun h : Fin (8 * 512) => f h)
    (fun x => congrArg f (Fin.ext (by show 512 * x.1.val + x.2.val = x.2.val + 512 * x.1.val; omega)))

/-- So the eight block terms together are the down projection over all hidden columns. -/
theorem sum_blockTerm (c : Dev nD) (T : Fin 512) (q : Fin 1024) :
    ∑ k ∈ Finset.range 8, blockTerm m c T q k = ∑ h : Fin 4096, hid m c T h * wD m c (ix2 h q) :=
  sum_blocks (fun h => hid m c T h * wD m c (ix2 h q))

end Cert.KernelIdeal.Value

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.LibScatterAdd.lean ====
/-
  An accumulating scatter read at an index, at the extended reals.

  The accumulating scatter of updates into an operand holds, at each operand index, the operand's element plus the
  sum of the updates that land there. An update lands, on every operand axis, at its start (the start index's component
  for that axis, read as a signed integer and not clamped; zero on an axis the start index does not address) plus its
  window coordinate (the update's coordinate on the window axis that goes to that operand axis; zero on an inserted
  axis); an update that lands outside the operand on some axis is dropped.

  Two shapes of it:
    * FLAT: a vector operand [N], a column of start indices [R, 1], one scalar update per start index [R]. The one operand
      axis is addressed by the start index and inserted, so update n lands on p exactly when idx[n, 0], read signed, is p:
      element p is the operand's plus the updates n whose start index is p.
    * ROWS: a matrix operand [S, T], a column of start indices [R, 1] naming ROWS, one row update [R, T] per start index.
      Operand axis 0 is addressed by the start index and inserted, operand axis 1 carries the update's window axis 1 from
      start zero, so update (n, t') lands on (o, t) exactly when idx[n, 0], read signed, is o and t' = t. The sum over
      the update indices that land on (o, t), split by coordinates, keeps in each row n at most the one term t' = t:
      element (o, t) is the operand's plus the updates (n, t) of the rows n whose start index is o.
-/
import Idealize.ShloMosaic.PureOps.Ideal
import Idealize.ShloMosaic.Lib.ValueIdx
import proofs.«401864_j62380105007473_3_alg».proof.Proof.LibScatterConst

noncomputable section

namespace Cert.LibScatterAdd

open Idealize.ShloMosaic Idealize.ShloMosaic.ValueIdx

/-- FLAT, one update: update `n` lands on `p` exactly when its start index, read signed, is `p`. The operand's one axis is
    the one the start index addresses, so the start there is the index word at `[n, 0]`; that axis is inserted, so the
    window coordinate is zero. -/
theorem flat_lands_iff {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1) (idx : IVec ⟨2, ![R, 1]⟩ 32) (n : (⟨1, ![R]⟩ : Shape).Idx) (p : Fin N) :
    d.resultIdx? n idx = some (ix1 p) ↔ (idx (ix2 (n 0) (0 : Fin 1))).toInt = (p.val : ℤ) := by
  rw [Cert.LibScatterConst.resultIdx?_eq_some_iff]
  obtain ⟨uw, iw, sd, iv, wf⟩ := d
  dsimp only at huw hiw hsd hiv
  subst huw hiw hsd hiv
  -- the start on the operand's axis: the index word at [n, 0]
  have hstart : ScatterDims.start (s := ⟨1, ![N]⟩) (si := ⟨2, ![R, 1]⟩) (u := ⟨1, ![R]⟩) ⟨[], [0], [0], 1, wf⟩ n idx 0
      = (idx (ix2 (n 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- the operand's axis is inserted: no window coordinate
  have hwin : ScatterDims.window (s := ⟨1, ![N]⟩) (si := ⟨2, ![R, 1]⟩) (u := ⟨1, ![R]⟩) ⟨[], [0], [0], 1, wf⟩ n 0 = 0 := by
    unfold ScatterDims.window
    exact dif_neg (show (0 : Fin 1) ∉ (List.finRange 1).filter (· ∉ ([0] : List (Fin 1))) by decide)
  constructor
  · intro h
    have h0 := h 0
    rw [hstart, hwin, Nat.cast_zero, add_zero] at h0
    exact h0
  · intro h a
    obtain rfl : a = 0 := Subsingleton.elim _ _
    rw [hstart, hwin, Nat.cast_zero, add_zero]
    exact h

/-- FLAT: element `p` is the operand's plus the sum of the updates whose start index, read signed, is `p`. -/
theorem scatterAdd_flat_apply {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![R, 1]⟩ 32) (upd : (⟨1, ![R]⟩ : Shape).Idx → EReal) (p : Fin N) :
    Ideal.hostScatterAdd d x idx upd (ix1 p)
      = x (ix1 p) + ∑ n ∈ Finset.univ.filter
          (fun n : (⟨1, ![R]⟩ : Shape).Idx => (idx (ix2 (n 0) (0 : Fin 1))).toInt = (p.val : ℤ)), upd n := by
  -- the two sums run over the same set of update indices
  unfold Ideal.hostScatterAdd
  congr 1
  refine Finset.sum_congr (Finset.filter_congr fun n _ => ?_) fun _ _ => rfl
  exact flat_lands_iff d huw hiw hsd hiv idx n p

/-- ROWS, one update: update `j = (n, t')` lands on `(o, t)` exactly when the start index of row `n`, read signed, is `o`
    and `t' = t`. On operand axis 0 the start is the index word at `[n, 0]` and the axis is inserted (window coordinate
    zero); operand axis 1 is not addressed by the start index (start zero) and carries the update's axis 1. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff]
  obtain ⟨uw, iw, sd, iv, wf⟩ := d
  dsimp only at huw hiw hsd hiv
  subst huw hiw hsd hiv
  -- operand axis 0: the start is the index word at [n, 0] …
  have hstart0 : ScatterDims.start (s := ⟨2, ![S, T]⟩) (si := ⟨2, ![R, 1]⟩) (u := ⟨2, ![R, T]⟩) ⟨[1], [0], [0], 1, wf⟩ j idx 0
      = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 1 is not addressed by the start index
  have hstart1 : ScatterDims.start (s := ⟨2, ![S, T]⟩) (si := ⟨2, ![R, 1]⟩) (u := ⟨2, ![R, T]⟩) ⟨[1], [0], [0], 1, wf⟩ j idx 1
      = 0 := by
    unfold ScatterDims.start
    exact dif_neg (show (1 : Fin 2) ∉ ([0] : List (Fin 2)) by decide)
  -- operand axis 0 is inserted: no window coordinate …
  have hwin0 : ScatterDims.window (s := ⟨2, ![S, T]⟩) (si := ⟨2, ![R, 1]⟩) (u := ⟨2, ![R, T]⟩) ⟨[1], [0], [0], 1, wf⟩ j 0 = 0 := by
    unfold ScatterDims.window
    exact dif_neg (show (0 : Fin 2) ∉ (List.finRange 2).filter (· ∉ ([0] : List (Fin 2))) by decide)
  -- … operand axis 1 is the one kept axis: its window coordinate is the update's coordinate on its window axis 1
  have hwin1 : ScatterDims.window (s := ⟨2, ![S, T]⟩) (si := ⟨2, ![R, 1]⟩) (u := ⟨2, ![R, T]⟩) ⟨[1], [0], [0], 1, wf⟩ j 1
      = (j 1).val := by
    unfold ScatterDims.window
    exact (dif_pos (show (1 : Fin 2) ∈ (List.finRange 2).filter (· ∉ ([0] : List (Fin 2))) by decide)).trans rfl
  constructor
  · intro h
    have h0 := h 0
    have h1 := h 1
    rw [hstart0, hwin0, Nat.cast_zero, add_zero] at h0
    rw [hstart1, hwin1, zero_add] at h1
    exact ⟨h0, Fin.ext (by exact_mod_cast h1)⟩
  · rintro ⟨h0, h1⟩ a
    match a with
    | ⟨0, _⟩ =>
      show ScatterDims.start _ j idx 0 + (ScatterDims.window _ j 0 : ℤ) = _
      rw [hstart0, hwin0, Nat.cast_zero, add_zero]
      exact h0
    | ⟨1, _⟩ =>
      show ScatterDims.start _ j idx 1 + (ScatterDims.window _ j 1 : ℤ) = _
      rw [hstart1, hwin1, zero_add, h1]

/-- ROWS: element `(o, t)` is the operand's plus the sum over the rows `n` whose start index, read signed, is `o`, of
    update `(n, t)`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  -- both sums as sums of guarded terms; the left one split by the update index's coordinates (n, t')
  rw [Finset.sum_filter, Finset.sum_filter, sum_idx2]
  refine Finset.sum_congr rfl fun n _ => ?_
  by_cases hP : (idx (ix2 n (0 : Fin 1))).toInt = (o.val : ℤ)
  · -- row n starts at o: of its terms only t' = t lands on (o, t)
    rw [if_pos hP, Finset.sum_eq_single t]
    · exact if_pos ((rows_lands_iff d huw hiw hsd hiv idx (ix2 n t) o t).mpr ⟨hP, rfl⟩)
    · intro b _ hb
      exact if_neg (fun h => hb ((rows_lands_iff d huw hiw hsd hiv idx (ix2 n b) o t).mp h).2)
    · intro h; exact absurd (Finset.mem_univ t) h
  · -- row n starts elsewhere: none of its terms lands on (o, t)
    rw [if_neg hP]
    refine Finset.sum_eq_zero fun b _ => ?_
    exact if_neg (fun h => hP ((rows_lands_iff d huw hiw hsd hiv idx (ix2 n b) o t).mp h).1)

end Cert.LibScatterAdd

end
-- ==== Proof.KHostDown.lean ====
/-
  What the kernel's pipeline finds in the arrays the host lines before it write, read at an index (part 1).

  * The input [2, 256, 1024] reshaped to [512, 1024]: a reshape keeps the row-major position, and the position of
    (t, a) in the second shape, t·1024 + a, is that of (t / 256, t % 256, a) in the first: row t is token t.
    The converted copy holds the same extended reals (a conversion is the identity on them).
  * The three biases reshaped to one row: entry (0, j) is entry j.
  * The "down" table [4096, 1024]. Each entry n of the list gets the flat index word  col n · 1024 + row n;  a negative
    word would be moved up by 4194304, the words are broadcast to a column, and the values are scattered, accumulating,
    into a zero vector of 4194304 elements, which is then reshaped (and converted). With col n < 4096 and row n < 1024
    the product and the sum stay below 2²², so nothing overflows, the word is not negative and is kept, and read as a
    signed integer it is col n · 1024 + row n. Element p = h·1024 + d of the vector is therefore 0 plus the sum of the
    values of the entries with col n · 1024 + row n = h·1024 + d, and since row n, d < 1024 (the digits in base 1024 are
    unique) these are the entries with col n = h and row n = d: the table's entry (h, d) is `dense row col val h d`.
-/
import proofs.«401864_j62380105007473_3_alg».proof.Proof.Gen.KernelIdeal.Frame
import proofs.«401864_j62380105007473_3_alg».proof.Proof.LibScatterAdd
import proofs.«401864_j62380105007473_3_alg».proof.Proof.Spec
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.HostDown

open Cert.KernelIdeal Cert.KernelIdeal.Gen Cert.SparseMlp
open Idealize.ShloMosaic Idealize.ShloMosaic.TcCoe Idealize.SL.Sem Idealize.ShloMosaic.ValueIdx

variable (m : (ℓ : Loc nD τ sig) → Buf (Elt Ideal) ℓ) (c : Dev nD)

/-- An argument array of the program as the launch memory holds it. -/
abbrev arg (b : Ref sig .tc) : Buf (Elt Ideal) ((c : Thread nD τ).loc b) := m ((c : Thread nD τ).loc b)

/-! ## Reshapes read at an index -/

/-- The input reshaped to 512 rows: row t = 256·b + r is token t. -/
theorem reshape_tok (x : S2x256x1024.Idx → EReal) (t : Fin 512) (a : Fin 1024) :
    shapeCast S512x1024 x shapeCasts_S2x256x1024_S512x1024 (ix2 t a) = tok x t a := by
  unfold tok
  refine shapeCast_apply x shapeCasts_S2x256x1024_S512x1024 (ix2 t a) _ ?_
  rw [Shape.rowMajor_val_three, Shape.rowMajor_val_two]
  have ht : t.val < 512 := t.isLt
  show (t.val / 256 * 256 + t.val % 256) * 1024 + a.val = t.val * 1024 + a.val
  omega

/-- A vector reshaped to one row. -/
theorem reshape_row {n : ℕ} (x : (⟨1, ![n]⟩ : Shape).Idx → EReal)
    (hc : (⟨1, ![n]⟩ : Shape).ShapeCasts ⟨2, ![1, n]⟩) (j : Fin n) :
    shapeCast (⟨2, ![1, n]⟩ : Shape) x hc (ix2 (0 : Fin 1) j) = x (ix1 j) := by
  refine shapeCast_apply x hc (ix2 (0 : Fin 1) j) (ix1 j) ?_
  rw [Shape.rowMajor_val_one, Shape.rowMajor_val_two]
  show j.val = 0 * n + j.val
  omega

theorem x_f32 (t : Fin 512) (a : Fin 1024) :
    (V m c main_v0 : S512x1024.Idx → EReal) (ix2 t a) = tok (arg m c main_arg0) t a := by
  have e : (V m c main_v0 : S512x1024.Idx → EReal)
      = shapeCast S512x1024 (arg m c main_arg0 : S2x256x1024.Idx → EReal) shapeCasts_S2x256x1024_S512x1024 := by
    show StableHlo.after hostOps0 (fun b => m (c, b)) (Proc.devRef .tc main_v0) = _
    after_results
    rfl
  exact (congrFun e (ix2 t a)).trans (reshape_tok _ t a)

theorem x_bf16 (t : Fin 512) (a : Fin 1024) :
    (V m c main_v1 : S512x1024.Idx → EReal) (ix2 t a) = tok (arg m c main_arg0) t a := by
  have e : (V m c main_v1 : S512x1024.Idx → EReal)
      = truncf .bf16 (shapeCast S512x1024 (arg m c main_arg0 : S2x256x1024.Idx → EReal) shapeCasts_S2x256x1024_S512x1024
          : FVec Ideal S512x1024 .f32) bitsLt_bf16_f32 := by
    show StableHlo.after hostOps0 (fun b => m (c, b)) (Proc.devRef .tc main_v1) = _
    after_results
    rfl
  refine (congrFun e (ix2 t a)).trans ?_
  rw [truncf_apply]
  exact reshape_tok _ t a

theorem up_bias (h : Fin 4096) :
    (V m c main_v39 : S1x4096.Idx → EReal) (ix2 (0 : Fin 1) h) = arg m c main_arg4 (ix1 h) := by
  have e : (V m c main_v39 : S1x4096.Idx → EReal)
      = shapeCast S1x4096 (arg m c main_arg4 : S4096.Idx → EReal) shapeCasts_S4096_S1x4096 := by
    show StableHlo.after hostOps0 (fun b => m (c, b)) (Proc.devRef .tc main_v39) = _
    after_results
    rfl
  exact (congrFun e (ix2 (0 : Fin 1) h)).trans (reshape_row _ shapeCasts_S4096_S1x4096 h)

theorem gate_bias (h : Fin 4096) :
    (V m c main_v40 : S1x4096.Idx → EReal) (ix2 (0 : Fin 1) h) = arg m c main_arg8 (ix1 h) := by
  have e : (V m c main_v40 : S1x4096.Idx → EReal)
      = shapeCast S1x4096 (arg m c main_arg8 : S4096.Idx → EReal) shapeCasts_S4096_S1x4096 := by
    show StableHlo.after hostOps0 (fun b => m (c, b)) (Proc.devRef .tc main_v40) = _
    after_results
    rfl
  exact (congrFun e (ix2 (0 : Fin 1) h)).trans (reshape_row _ shapeCasts_S4096_S1x4096 h)

theorem down_bias (d : Fin 1024) :
    (V m c main_v41 : S1x1024.Idx → EReal) (ix2 (0 : Fin 1) d) = arg m c main_arg12 (ix1 d) := by
  have e : (V m c main_v41 : S1x1024.Idx → EReal)
      = shapeCast S1x1024 (arg m c main_arg12 : S1024.Idx → EReal) shapeCasts_S1024_S1x1024 := by
    show StableHlo.after hostOps0 (fun b => m (c, b)) (Proc.devRef .tc main_v41) = _
    after_results
    rfl
  exact (congrFun e (ix2 (0 : Fin 1) d)).trans (reshape_row _ shapeCasts_S1024_S1x1024 d)

/-! ## The "down" table -/

/-- A word repeated over the list of entries. -/
abbrev rep (k : BitVec 32) : IVec S262144 32 := broadcastInDim S262144 ![] bcast_S_S262144 (constantI S_ 32 k)

/-- The flat index word of each entry: column · 1024 + row. -/
def flatW (row col : IVec S262144 32) : IVec S262144 32 := addi (muli col (rep 1024#32)) row

/-- A negative index word moved up by the table's 4194304 elements; any other word kept. -/
def wrapW (w : IVec S262144 32) : IVec S262144 32 := select (cmpi .slt w (rep 0#32)) (addi w (rep 4194304#32)) w

/-- The zero vector scattered into, the flat indices as a column, the values: the table before its reshape. -/
abbrev flatTable (row col : IVec S262144 32) (val : FVec Ideal S262144 .f32) : FVec Ideal S4194304 .f32 :=
  Host.scatterAdd scatter_S4194304_S262144x1_S262144_n_0_0_1
    (broadcastInDim S4194304 ![] bcast_S_S4194304 (constant (F := Ideal) S_ .f32 0x00000000#32) : FVec Ideal S4194304 .f32)
    (broadcastInDim S262144x1 ![0] bcast_S262144_S262144x1_0 (wrapW (flatW row col)))
    val

/-- The flat index word at an entry: the product and the sum of words. -/
theorem flatW_apply (row col : IVec S262144 32) (n : S262144.Idx) :
    flatW row col n = col n * 1024#32 + row n := rfl

/-- With the column below 4096 and the row below 1024 neither the product nor the sum overflows:
    the flat index word's value is column · 1024 + row. -/
theorem flatW_toNat (row col : IVec S262144 32) (n : S262144.Idx)
    (hr : (row n).toNat < 1024) (hc : (col n).toNat < 4096) :
    (flatW row col n).toNat = (col n).toNat * 1024 + (row n).toNat := by
  rw [flatW_apply, BitVec.toNat_add, BitVec.toNat_mul]
  show ((col n).toNat * 1024 % 2 ^ 32 + (row n).toNat) % 2 ^ 32 = _
  omega

/-- A word below 2³¹ is not negative: the wrap keeps it. -/
theorem wrapW_apply (w : IVec S262144 32) (n : S262144.Idx) (hw : (w n).toNat < 2 ^ 31) : wrapW w n = w n := by
  show Scalar.select (IntOp.cmpi .slt (w n) 0#32) (IntOp.addi (w n) 4194304#32) (w n) = w n
  have h0 : IntOp.cmpi .slt (w n) 0#32 = 0#1 := eq_zero_of_ne_one fun h1 => by
    have hlt := (StableHlo.Predicate.slt_iff_toNat hw (by decide)).mp h1
    exact Nat.not_lt_zero _ hlt
  rw [h0, select_zero]

/-- The table read at (h, d): the values of the entries with column h and row d, summed. An entry lands at
    p = h·1024 + d exactly when its flat index col·1024 + row equals p, that is (row < 1024, d < 1024: the digits in
    base 1024 are unique) when col = h and row = d. -/
theorem table_apply (row col : IVec S262144 32) (val : FVec Ideal S262144 .f32)
    (hr : InRange row 1024) (hc : InRange col 4096) (h : Fin 4096) (d : Fin 1024) :
    shapeCast S4096x1024 (flatTable row col val) shapeCasts_S4194304_S4096x1024 (ix2 h d) = dense row col val h d := by
  have hh : h.val < 4096 := h.isLt
  have hd : d.val < 1024 := d.isLt
  have hp : h.val * 1024 + d.val < 4194304 := by omega
  refine (shapeCast_apply _ shapeCasts_S4194304_S4096x1024 (ix2 h d) (ix1 (⟨h.val * 1024 + d.val, hp⟩ : Fin 4194304)) ?_).trans ?_
  · rw [Shape.rowMajor_val_one, Shape.rowMajor_val_two]; rfl
  show Ideal.hostScatterAdd scatter_S4194304_S262144x1_S262144_n_0_0_1 _ _ val (ix1 _) = _
  rw [Cert.LibScatterAdd.scatterAdd_flat_apply (N := 4194304) (R := 262144) scatter_S4194304_S262144x1_S262144_n_0_0_1 rfl rfl rfl rfl]
  have hz : (broadcastInDim S4194304 ![] bcast_S_S4194304 (constant (F := Ideal) S_ .f32 0x00000000#32) : FVec Ideal S4194304 .f32)
      (ix1 (⟨h.val * 1024 + d.val, hp⟩ : Fin 4194304)) = 0 := Ideal.ofBits_zero_f32
  rw [hz, zero_add]
  unfold dense
  refine Finset.sum_congr (Finset.filter_congr fun n _ => ?_) (fun _ _ => rfl)
  have hidx : broadcastInDim S262144x1 ![0] bcast_S262144_S262144x1_0 (wrapW (flatW row col)) (ix2 (n 0) (0 : Fin 1))
      = wrapW (flatW row col) n :=
    broadcastInDim_apply _ bcast_S262144_S262144x1_0 _ (ix2 (n 0) (0 : Fin 1)) n (fun a => match a with
      | ⟨0, _⟩ => by show (n 0).val = if (262144 : Nat) = 1 then 0 else (n 0).val; rw [if_neg (by decide)])
  have hrn : (row n).toNat < 1024 := hr n
  have hcn : (col n).toNat < 4096 := hc n
  have hn := flatW_toNat row col n hrn hcn
  rw [hidx, wrapW_apply _ n (by omega), StableHlo.Predicate.toInt_eq_toNat_of_lt (by omega), hn]
  show (((col n).toNat * 1024 + (row n).toNat : ℕ) : ℤ) = ((h.val * 1024 + d.val : ℕ) : ℤ) ↔ _
  omega

/-- The array the pipeline's "down" window reads, as a function of the three argument arrays it is computed from. -/
theorem e_down :
    (V m c main_v38 : S4096x1024.Idx → EReal)
      = truncf .bf16 (shapeCast S4096x1024
          (flatTable (arg m c main_arg9) (arg m c main_arg10) (arg m c main_arg11))
          shapeCasts_S4194304_S4096x1024 : FVec Ideal S4096x1024 .f32) bitsLt_bf16_f32 := by
  show StableHlo.after hostOps0 (fun b => m (c, b)) (Proc.devRef .tc main_v38) = _
  after_results_simp
  rfl

theorem down_table (hdr : InRange (arg m c main_arg9) 1024) (hdc : InRange (arg m c main_arg10) 4096)
    (h : Fin 4096) (d : Fin 1024) :
    (V m c main_v38 : S4096x1024.Idx → EReal) (ix2 h d)
      = dense (arg m c main_arg9) (arg m c main_arg10) (arg m c main_arg11) h d := by
  refine (congrFun (e_down m c) (ix2 h d)).trans ?_
  rw [truncf_apply]
  exact table_apply _ _ _ hdr hdc h d

end Cert.KernelIdeal.HostDown

end
-- ==== Proof.KHostUpGate.lean ====
/-
  What the kernel's pipeline finds in the "up" and "gate" tables [1024, 4096], read at an index.

  One accumulating scatter builds both: the up entries go to the flat index  col · 4096 + row  of a zero vector of
  2 · 1024 · 4096 elements, the gate entries to the same index moved up by 1024 · 4096; with every index in range no word
  arithmetic overflows and no index is negative, so the wrap of negative indices keeps every word. The first half of the
  vector, reshaped, is the up table, the second half the gate table. The sum over the 524288 entries that land on an
  element splits into the up entries and the gate entries; an up entry never lands in the second half and a gate entry
  never in the first, and within a half an entry lands on (a, h) exactly when its column is a and its row is h (the
  digits in base 4096 are unique). So entry (a, h) of each table sums the values of its list's entries with column a
  and row h.
-/
import proofs.«401864_j62380105007473_3_alg».proof.Proof.Gen.KernelIdeal.Frame
import proofs.«401864_j62380105007473_3_alg».proof.Proof.LibScatterAdd
import proofs.«401864_j62380105007473_3_alg».proof.Proof.Spec
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.HostUpGate

open Cert.KernelIdeal Cert.KernelIdeal.Gen Cert.SparseMlp
open Idealize.ShloMosaic Idealize.ShloMosaic.TcCoe Idealize.SL.Sem Idealize.ShloMosaic.ValueIdx

variable (m : (ℓ : Loc nD τ sig) → Buf (Elt Ideal) ℓ) (c : Dev nD)

abbrev arg (b : Ref sig .tc) : Buf (Elt Ideal) ((c : Thread nD τ).loc b) := m ((c : Thread nD τ).loc b)

/-- A word repeated over a list of entries, and over the two lists one after the other. -/
abbrev rep (k : BitVec 32) : IVec S262144 32 := broadcastInDim S262144 ![] bcast_S_S262144 (constantI S_ 32 k)
abbrev rep2 (k : BitVec 32) : IVec S524288 32 := broadcastInDim S524288 ![] bcast_S_S524288 (constantI S_ 32 k)

/-- The flat index word of an up entry: column · 4096 + row; of a gate entry: the same, moved up by 1024 · 4096. -/
def upW (row col : IVec S262144 32) : IVec S262144 32 := addi (muli col (rep 4096#32)) row
def gateW (row col : IVec S262144 32) : IVec S262144 32 := addi (addi (muli col (rep 4096#32)) row) (rep 4194304#32)

/-- The two lists' index words, and their values, one after the other. -/
def allW (ur uc gr gc : IVec S262144 32) : IVec S524288 32 :=
  concatenate S524288 0 [⟨S262144, upW ur uc⟩, ⟨S262144, gateW gr gc⟩] concatenates_S262144_S262144_S524288_d0
def allVal (uv gv : FVec Ideal S262144 .f32) : FVec Ideal S524288 .f32 :=
  concatenate S524288 0 [⟨S262144, uv⟩, ⟨S262144, gv⟩] concatenates_S262144_S262144_S524288_d0

/-- A negative index word moved up by the buffer's 8388608 elements; any other word kept. -/
def wrapW (w : IVec S524288 32) : IVec S524288 32 := select (cmpi .slt w (rep2 0#32)) (addi w (rep2 8388608#32)) w

/-- The buffer of 2 · 1024 · 4096 elements both tables are cut from. -/
abbrev bigTable (ur uc : IVec S262144 32) (uv : FVec Ideal S262144 .f32) (gr gc : IVec S262144 32) (gv : FVec Ideal S262144 .f32) :
    FVec Ideal S8388608 .f32 :=
  Host.scatterAdd scatter_S8388608_S524288x1_S524288_n_0_0_1
    (broadcastInDim S8388608 ![] bcast_S_S8388608 (constant (F := Ideal) S_ .f32 0x00000000#32) : FVec Ideal S8388608 .f32)
    (broadcastInDim S524288x1 ![0] bcast_S524288_S524288x1_0 (wrapW (allW ur uc gr gc)))
    (allVal uv gv)

/-! ## Words -/

theorem upW_apply (row col : IVec S262144 32) (n : S262144.Idx) : upW row col n = col n * 4096#32 + row n := rfl
theorem gateW_apply (row col : IVec S262144 32) (n : S262144.Idx) :
    gateW row col n = col n * 4096#32 + row n + 4194304#32 := rfl

/-- With the column below 1024 and the row below 4096 nothing overflows. -/
theorem upW_toNat (row col : IVec S262144 32) (n : S262144.Idx)
    (hr : (row n).toNat < 4096) (hc : (col n).toNat < 1024) :
    (upW row col n).toNat = (col n).toNat * 4096 + (row n).toNat := by
  rw [upW_apply, BitVec.toNat_add, BitVec.toNat_mul]
  show ((col n).toNat * 4096 % 2 ^ 32 + (row n).toNat) % 2 ^ 32 = _
  omega

theorem gateW_toNat (row col : IVec S262144 32) (n : S262144.Idx)
    (hr : (row n).toNat < 4096) (hc : (col n).toNat < 1024) :
    (gateW row col n).toNat = (col n).toNat * 4096 + (row n).toNat + 4194304 := by
  rw [gateW_apply, BitVec.toNat_add, BitVec.toNat_add, BitVec.toNat_mul]
  show (((col n).toNat * 4096 % 2 ^ 32 + (row n).toNat) % 2 ^ 32 + 4194304) % 2 ^ 32 = _
  omega

/-- A word below 2³¹ is not negative: the wrap keeps it. -/
theorem wrapW_apply (w : IVec S524288 32) (n : S524288.Idx) (hw : (w n).toNat < 2 ^ 31) : wrapW w n = w n := by
  show Scalar.select (IntOp.cmpi .slt (w n) 0#32) (IntOp.addi (w n) 8388608#32) (w n) = w n
  have h0 : IntOp.cmpi .slt (w n) 0#32 = 0#1 := eq_zero_of_ne_one fun h1 => by
    have hlt := (StableHlo.Predicate.slt_iff_toNat hw (by decide)).mp h1
    exact Nat.not_lt_zero _ hlt
  rw [h0, select_zero]

/-! ## The two lists one after the other -/

/-- Entry `k` of the first list, and of the second, among the 524288. -/
abbrev inL (k : Fin 262144) : S524288.Idx := ix1 (Fin.castAdd 262144 k : Fin (262144 + 262144))
abbrev inR (k : Fin 262144) : S524288.Idx := ix1 (Fin.natAdd 262144 k : Fin (262144 + 262144))

theorem cat_left {α : Type} (x y : S262144.Idx → α) (k : Fin 262144) :
    concatenate S524288 0 [⟨S262144, x⟩, ⟨S262144, y⟩] concatenates_S262144_S262144_S524288_d0 (inL k) = x (ix1 k) :=
  concatenate_pair_apply_left (0 : Fin 1) x y concatenates_S262144_S262144_S524288_d0 (inL k) rfl (ix1 k)
    (fun b => match b with | ⟨0, _⟩ => rfl)

theorem cat_right {α : Type} (x y : S262144.Idx → α) (k : Fin 262144) :
    concatenate S524288 0 [⟨S262144, x⟩, ⟨S262144, y⟩] concatenates_S262144_S262144_S524288_d0 (inR k) = y (ix1 k) :=
  concatenate_pair_apply_right (0 : Fin 1) x y concatenates_S262144_S262144_S524288_d0 (inR k) rfl rfl (ix1 k)
    (fun b hb => match b, hb with | ⟨0, _⟩, hb => absurd rfl hb)
    (by show k.val + 262144 = 262144 + k.val; omega)

/-- A sum over a one-axis index type is the sum over its positions. -/
def idxEquiv1 (n : ℕ) : Fin n ≃ (⟨1, ![n]⟩ : Shape).Idx where
  toFun := ix1
  invFun j := j 0
  left_inv _ := rfl
  right_inv j := (eq_ix1 j).symm

theorem sum_idx1 {M : Type} [AddCommMonoid M] {n : ℕ} (f : (⟨1, ![n]⟩ : Shape).Idx → M) :
    ∑ j, f j = ∑ i : Fin n, f (ix1 i) :=
  (Fintype.sum_equiv (idxEquiv1 n) _ _ (fun _ => rfl)).symm

/-- The index column read at an entry. -/
theorem col_apply (w : IVec S524288 32) (n : S524288.Idx) :
    broadcastInDim S524288x1 ![0] bcast_S524288_S524288x1_0 w (ix2 (n 0) (0 : Fin 1)) = w n :=
  broadcastInDim_apply _ bcast_S524288_S524288x1_0 _ (ix2 (n 0) (0 : Fin 1)) n (fun a => match a with
    | ⟨0, _⟩ => by show (n 0).val = if (524288 : Nat) = 1 then 0 else (n 0).val; rw [if_neg (by decide)])

section
variable (ur uc : IVec S262144 32) (uv : FVec Ideal S262144 .f32) (gr gc : IVec S262144 32) (gv : FVec Ideal S262144 .f32)
  (hur : InRange ur 4096) (huc : InRange uc 1024) (hgr : InRange gr 4096) (hgc : InRange gc 1024)

include hur huc in
/-- The signed reading of the index word of up entry `k`. -/
theorem idx_left (k : Fin 262144) :
    (broadcastInDim S524288x1 ![0] bcast_S524288_S524288x1_0 (wrapW (allW ur uc gr gc)) (ix2 ((inL k) 0) (0 : Fin 1))).toInt
      = (((uc (ix1 k)).toNat * 4096 + (ur (ix1 k)).toNat : ℕ) : ℤ) := by
  have e : allW ur uc gr gc (inL k) = upW ur uc (ix1 k) := cat_left _ _ k
  have hn := upW_toNat ur uc (ix1 k) (hur _) (huc _)
  have h1 := hur (ix1 k)
  have h2 := huc (ix1 k)
  rw [col_apply, wrapW_apply _ _ (by rw [e, hn]; omega), e, StableHlo.Predicate.toInt_eq_toNat_of_lt (by rw [hn]; omega), hn]

include hgr hgc in
/-- The signed reading of the index word of gate entry `k`. -/
theorem idx_right (k : Fin 262144) :
    (broadcastInDim S524288x1 ![0] bcast_S524288_S524288x1_0 (wrapW (allW ur uc gr gc)) (ix2 ((inR k) 0) (0 : Fin 1))).toInt
      = (((gc (ix1 k)).toNat * 4096 + (gr (ix1 k)).toNat + 4194304 : ℕ) : ℤ) := by
  have e : allW ur uc gr gc (inR k) = gateW gr gc (ix1 k) := cat_right _ _ k
  have hn := gateW_toNat gr gc (ix1 k) (hgr _) (hgc _)
  have h1 := hgr (ix1 k)
  have h2 := hgc (ix1 k)
  rw [col_apply, wrapW_apply _ _ (by rw [e, hn]; omega), e, StableHlo.Predicate.toInt_eq_toNat_of_lt (by rw [hn]; omega), hn]

include hur huc hgr hgc in
/-- The buffer at an index of its first half, and of its second half: the up, resp. gate, entries with that column
    and row (the digits in base 4096 are unique; an entry of the other list never lands in this half). -/
theorem big_apply (a : Fin 1024) (h : Fin 4096) :
    bigTable ur uc uv gr gc gv (ix1 (⟨a.val * 4096 + h.val, by omega⟩ : Fin 8388608)) = dense ur uc uv a h
    ∧ bigTable ur uc uv gr gc gv (ix1 (⟨4194304 + (a.val * 4096 + h.val), by omega⟩ : Fin 8388608)) = dense gr gc gv a h := by
  have ha : a.val < 1024 := a.isLt
  have hh : h.val < 4096 := h.isLt
  have key : ∀ (P : Fin 8388608),
      bigTable ur uc uv gr gc gv (ix1 P)
        = (∑ k : Fin 262144, if (((uc (ix1 k)).toNat * 4096 + (ur (ix1 k)).toNat : ℕ) : ℤ) = (P.val : ℤ) then uv (ix1 k) else 0)
          + ∑ k : Fin 262144, if (((gc (ix1 k)).toNat * 4096 + (gr (ix1 k)).toNat + 4194304 : ℕ) : ℤ) = (P.val : ℤ) then gv (ix1 k) else 0 := by
    intro P
    show Ideal.hostScatterAdd scatter_S8388608_S524288x1_S524288_n_0_0_1 _ _ (allVal uv gv) (ix1 P) = _
    rw [Cert.LibScatterAdd.scatterAdd_flat_apply (N := 8388608) (R := 524288) scatter_S8388608_S524288x1_S524288_n_0_0_1 rfl rfl rfl rfl]
    have hz : (broadcastInDim S8388608 ![] bcast_S_S8388608 (constant (F := Ideal) S_ .f32 0x00000000#32) : FVec Ideal S8388608 .f32)
        (ix1 P) = 0 := Ideal.ofBits_zero_f32
    rw [hz, zero_add, Finset.sum_filter, sum_idx1]
    show ∑ i : Fin (262144 + 262144), _ = _
    rw [Fin.sum_univ_add]
    refine congrArg₂ (· + ·) (Finset.sum_congr rfl fun k _ => ?_) (Finset.sum_congr rfl fun k _ => ?_)
    · show (if (broadcastInDim S524288x1 ![0] bcast_S524288_S524288x1_0 (wrapW (allW ur uc gr gc)) (ix2 ((inL k) 0) (0 : Fin 1))).toInt = (P.val : ℤ)
          then allVal uv gv (inL k) else 0) = _
      rw [idx_left ur uc gr gc hur huc k, show allVal uv gv (inL k) = uv (ix1 k) from cat_left _ _ k]
    · show (if (broadcastInDim S524288x1 ![0] bcast_S524288_S524288x1_0 (wrapW (allW ur uc gr gc)) (ix2 ((inR k) 0) (0 : Fin 1))).toInt = (P.val : ℤ)
          then allVal uv gv (inR k) else 0) = _
      rw [idx_right ur uc gr gc hgr hgc k, show allVal uv gv (inR k) = gv (ix1 k) from cat_right _ _ k]
  constructor
  · rw [key]
    have z : ∀ k : Fin 262144, (if (((gc (ix1 k)).toNat * 4096 + (gr (ix1 k)).toNat + 4194304 : ℕ) : ℤ)
        = (((⟨a.val * 4096 + h.val, by omega⟩ : Fin 8388608).val : ℕ) : ℤ) then gv (ix1 k) else 0) = 0 := fun k =>
      if_neg (by show ¬ ((((gc (ix1 k)).toNat * 4096 + (gr (ix1 k)).toNat + 4194304 : ℕ) : ℤ) = ((a.val * 4096 + h.val : ℕ) : ℤ)); omega)
    rw [Finset.sum_congr rfl (fun k _ => z k), Finset.sum_const_zero, add_zero]
    unfold dense
    rw [Finset.sum_filter, sum_idx1]
    refine Finset.sum_congr rfl fun k _ => if_congr ?_ rfl rfl
    have h1 := hur (ix1 k)
    show (((uc (ix1 k)).toNat * 4096 + (ur (ix1 k)).toNat : ℕ) : ℤ) = ((a.val * 4096 + h.val : ℕ) : ℤ) ↔ _
    omega
  · rw [key]
    have z : ∀ k : Fin 262144, (if (((uc (ix1 k)).toNat * 4096 + (ur (ix1 k)).toNat : ℕ) : ℤ)
        = (((⟨4194304 + (a.val * 4096 + h.val), by omega⟩ : Fin 8388608).val : ℕ) : ℤ) then uv (ix1 k) else 0) = 0 := fun k =>
      if_neg (by
        have h1 := hur (ix1 k)
        have h2 := huc (ix1 k)
        show ¬ ((((uc (ix1 k)).toNat * 4096 + (ur (ix1 k)).toNat : ℕ) : ℤ) = ((4194304 + (a.val * 4096 + h.val) : ℕ) : ℤ)); omega)
    rw [Finset.sum_congr rfl (fun k _ => z k), Finset.sum_const_zero, zero_add]
    unfold dense
    rw [Finset.sum_filter, sum_idx1]
    refine Finset.sum_congr rfl fun k _ => if_congr ?_ rfl rfl
    have h1 := hgr (ix1 k)
    show (((gc (ix1 k)).toNat * 4096 + (gr (ix1 k)).toNat + 4194304 : ℕ) : ℤ) = ((4194304 + (a.val * 4096 + h.val) : ℕ) : ℤ) ↔ _
    omega

end

/-! ## The arrays the two windows read, as terms of the arguments -/

theorem e_up :
    (V m c main_v24 : S1024x4096.Idx → EReal)
      = truncf .bf16 (shapeCast S1024x4096
          (extractStridedSlice S4194304 ![0]
            (bigTable (arg m c main_arg1) (arg m c main_arg2) (arg m c main_arg3) (arg m c main_arg5) (arg m c main_arg6) (arg m c main_arg7))
            slices_S8388608_S4194304_0)
          shapeCasts_S4194304_S1024x4096 : FVec Ideal S1024x4096 .f32) bitsLt_bf16_f32 := by
  show StableHlo.after hostOps0 (fun b => m (c, b)) (Proc.devRef .tc main_v24) = _
  after_results_simp
  rfl

theorem e_gate :
    (V m c main_v25 : S1024x4096.Idx → EReal)
      = truncf .bf16 (shapeCast S1024x4096
          (extractStridedSlice S4194304 ![4194304]
            (bigTable (arg m c main_arg1) (arg m c main_arg2) (arg m c main_arg3) (arg m c main_arg5) (arg m c main_arg6) (arg m c main_arg7))
            slices_S8388608_S4194304_4194304)
          shapeCasts_S4194304_S1024x4096 : FVec Ideal S1024x4096 .f32) bitsLt_bf16_f32 := by
  show StableHlo.after hostOps0 (fun b => m (c, b)) (Proc.devRef .tc main_v25) = _
  after_results_simp
  rfl

/-! ## The two tables -/

theorem up_table (hur : InRange (arg m c main_arg1) 4096) (huc : InRange (arg m c main_arg2) 1024)
    (hgr : InRange (arg m c main_arg5) 4096) (hgc : InRange (arg m c main_arg6) 1024)
    (a : Fin 1024) (h : Fin 4096) :
    (V m c main_v24 : S1024x4096.Idx → EReal) (ix2 a h)
      = dense (arg m c main_arg1) (arg m c main_arg2) (arg m c main_arg3) a h := by
  have ha : a.val < 1024 := a.isLt
  have hh : h.val < 4096 := h.isLt
  refine (congrFun (e_up m c) (ix2 a h)).trans ?_
  rw [truncf_apply]
  refine (shapeCast_apply _ shapeCasts_S4194304_S1024x4096 (ix2 a h)
    (ix1 (⟨a.val * 4096 + h.val, by omega⟩ : Fin 4194304)) ?_).trans ?_
  · rw [Shape.rowMajor_val_one, Shape.rowMajor_val_two]; rfl
  refine (extractStridedSlice_apply ![0] _ slices_S8388608_S4194304_0 (ix1 (⟨a.val * 4096 + h.val, by omega⟩ : Fin 4194304))
    (ix1 (⟨a.val * 4096 + h.val, by omega⟩ : Fin 8388608))
    (fun b => match b with | ⟨0, _⟩ => by show a.val * 4096 + h.val = 0 + (a.val * 4096 + h.val); omega)).trans ?_
  exact (big_apply _ _ _ _ _ _ hur huc hgr hgc a h).1

theorem gate_table (hur : InRange (arg m c main_arg1) 4096) (huc : InRange (arg m c main_arg2) 1024)
    (hgr : InRange (arg m c main_arg5) 4096) (hgc : InRange (arg m c main_arg6) 1024)
    (a : Fin 1024) (h : Fin 4096) :
    (V m c main_v25 : S1024x4096.Idx → EReal) (ix2 a h)
      = dense (arg m c main_arg5) (arg m c main_arg6) (arg m c main_arg7) a h := by
  have ha : a.val < 1024 := a.isLt
  have hh : h.val < 4096 := h.isLt
  refine (congrFun (e_gate m c) (ix2 a h)).trans ?_
  rw [truncf_apply]
  refine (shapeCast_apply _ shapeCasts_S4194304_S1024x4096 (ix2 a h)
    (ix1 (⟨a.val * 4096 + h.val, by omega⟩ : Fin 4194304)) ?_).trans ?_
  · rw [Shape.rowMajor_val_one, Shape.rowMajor_val_two]; rfl
  refine (extractStridedSlice_apply ![4194304] _ slices_S8388608_S4194304_4194304 (ix1 (⟨a.val * 4096 + h.val, by omega⟩ : Fin 4194304))
    (ix1 (⟨4194304 + (a.val * 4096 + h.val), by omega⟩ : Fin 8388608))
    (fun b => match b with | ⟨0, _⟩ => rfl)).trans ?_
  exact (big_apply _ _ _ _ _ _ hur huc hgr hgc a h).2

end Cert.KernelIdeal.HostUpGate

end
-- ==== Proof.KResult.lean ====
/-
  The kernel program's result in terms of its arguments.

  The arrays the pipeline reads are, index by index, the input's tokens, the dense tables of the three lists of entries
  and the biases (for in-range indices); so a token's hidden activation is the gated activation of its two projections
  through the up and gate tables, the result array's entry is  (token + Σ_h hidden · down table) + bias,  and the
  program's result, the reshape of that array, is the result "through dense tables" of the shared vocabulary. The run of
  the program ends with that result and with its arguments unchanged.
-/
import proofs.«401864_j62380105007473_3_alg».proof.Proof.KValue
import proofs.«401864_j62380105007473_3_alg».proof.Proof.KHostDown
import proofs.«401864_j62380105007473_3_alg».proof.Proof.KHostUpGate
import proofs.«401864_j62380105007473_3_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.SparseMlp

variable (m : (ℓ : Loc nD τ sig) → Buf (Elt Ideal) ℓ)

section
variable (c : Dev nD)
  (hur : InRange (m ((c.tc : Thread nD τ).loc main_arg1)) 4096) (huc : InRange (m ((c.tc : Thread nD τ).loc main_arg2)) 1024)
  (hgr : InRange (m ((c.tc : Thread nD τ).loc main_arg5)) 4096) (hgc : InRange (m ((c.tc : Thread nD τ).loc main_arg6)) 1024)
  (hdr : InRange (m ((c.tc : Thread nD τ).loc main_arg9)) 1024) (hdc : InRange (m ((c.tc : Thread nD τ).loc main_arg10)) 4096)

include hur huc hgr hgc in
/-- The kernel's two projections are the projections through the dense up and gate tables. -/
theorem proj_up_eq (T : Fin 512) (h : Fin 4096) :
    proj (xA m c) (wU m c) (bU m c) T h
      = denseLin (tok (m ((c.tc : Thread nD τ).loc main_arg0))) (dense (m ((c.tc : Thread nD τ).loc main_arg1)) (m ((c.tc : Thread nD τ).loc main_arg2)) (m ((c.tc : Thread nD τ).loc main_arg3))) (fun h => (m ((c.tc : Thread nD τ).loc main_arg4)) (ix1 h)) T h := by
  have eX : ∀ a, xA m c (ix2 T a) = tok (m ((c.tc : Thread nD τ).loc main_arg0)) T a := fun a => HostDown.x_bf16 m c T a
  have eU : ∀ a, wU m c (ix2 a h) = dense (m ((c.tc : Thread nD τ).loc main_arg1)) (m ((c.tc : Thread nD τ).loc main_arg2)) (m ((c.tc : Thread nD τ).loc main_arg3)) a h :=
    fun a => HostUpGate.up_table m c hur huc hgr hgc a h
  have eUb : bU m c (ix2 (0 : Fin 1) h) = (m ((c.tc : Thread nD τ).loc main_arg4)) (ix1 h) := HostDown.up_bias m c h
  show (∑ a : Fin 1024, xA m c (ix2 T a) * wU m c (ix2 a h)) + bU m c (ix2 (0 : Fin 1) h)
    = (∑ a : Fin 1024, tok (m ((c.tc : Thread nD τ).loc main_arg0)) T a * dense (m ((c.tc : Thread nD τ).loc main_arg1)) (m ((c.tc : Thread nD τ).loc main_arg2)) (m ((c.tc : Thread nD τ).loc main_arg3)) a h) + (m ((c.tc : Thread nD τ).loc main_arg4)) (ix1 h)
  exact congrArg₂ (· + ·) (Finset.sum_congr rfl fun a _ => congrArg₂ (· * ·) (eX a) (eU a)) eUb

include hur huc hgr hgc in
theorem proj_gate_eq (T : Fin 512) (h : Fin 4096) :
    proj (xA m c) (wG m c) (bG m c) T h
      = denseLin (tok (m ((c.tc : Thread nD τ).loc main_arg0))) (dense (m ((c.tc : Thread nD τ).loc main_arg5)) (m ((c.tc : Thread nD τ).loc main_arg6)) (m ((c.tc : Thread nD τ).loc main_arg7))) (fun h => (m ((c.tc : Thread nD τ).loc main_arg8)) (ix1 h)) T h := by
  have eX : ∀ a, xA m c (ix2 T a) = tok (m ((c.tc : Thread nD τ).loc main_arg0)) T a := fun a => HostDown.x_bf16 m c T a
  have eG : ∀ a, wG m c (ix2 a h) = dense (m ((c.tc : Thread nD τ).loc main_arg5)) (m ((c.tc : Thread nD τ).loc main_arg6)) (m ((c.tc : Thread nD τ).loc main_arg7)) a h :=
    fun a => HostUpGate.gate_table m c hur huc hgr hgc a h
  have eGb : bG m c (ix2 (0 : Fin 1) h) = (m ((c.tc : Thread nD τ).loc main_arg8)) (ix1 h) := HostDown.gate_bias m c h
  show (∑ a : Fin 1024, xA m c (ix2 T a) * wG m c (ix2 a h)) + bG m c (ix2 (0 : Fin 1) h)
    = (∑ a : Fin 1024, tok (m ((c.tc : Thread nD τ).loc main_arg0)) T a * dense (m ((c.tc : Thread nD τ).loc main_arg5)) (m ((c.tc : Thread nD τ).loc main_arg6)) (m ((c.tc : Thread nD τ).loc main_arg7)) a h) + (m ((c.tc : Thread nD τ).loc main_arg8)) (ix1 h)
  exact congrArg₂ (· + ·) (Finset.sum_congr rfl fun a _ => congrArg₂ (· * ·) (eX a) (eG a)) eGb

include hur huc hgr hgc in
/-- So the hidden activation the kernel computes is the one through the dense tables. -/
theorem hid_eq (T : Fin 512) (h : Fin 4096) :
    hid m c T h = hiddenDense (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) T h :=
  congrArg₂ gated (proj_up_eq m c hur huc hgr hgc T h) (proj_gate_eq m c hur huc hgr hgc T h)

include hur huc hgr hgc hdr hdc in
/-- The pipeline's result array, entry (T, q), is the result through dense tables. -/
theorem G_eq (T : Fin 512) (q : Fin 1024) :
    G m c (ix2 T q) = kernelVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) T q := by
  have e0 : xF m c (ix2 T q) = tok (m ((c.tc : Thread nD τ).loc main_arg0)) T q := HostDown.x_f32 m c T q
  have e1 : bD m c (ix2 (0 : Fin 1) q) = (m ((c.tc : Thread nD τ).loc main_arg12)) (ix1 q) := HostDown.down_bias m c q
  have e2 : ∀ h, wD m c (ix2 h q) = dense (m ((c.tc : Thread nD τ).loc main_arg9)) (m ((c.tc : Thread nD τ).loc main_arg10)) (m ((c.tc : Thread nD τ).loc main_arg11)) h q :=
    fun h => HostDown.down_table m c hdr hdc h q
  show (xF m c (ix2 T q) + ∑ k ∈ Finset.range 8, blockTerm m c T q k) + bD m c (ix2 (0 : Fin 1) q)
    = (tok (m ((c.tc : Thread nD τ).loc main_arg0)) T q + ∑ h : Fin 4096, hiddenDense (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) T h
          * dense (m ((c.tc : Thread nD τ).loc main_arg9)) (m ((c.tc : Thread nD τ).loc main_arg10)) (m ((c.tc : Thread nD τ).loc main_arg11)) h q) + (m ((c.tc : Thread nD τ).loc main_arg12)) (ix1 q)
  refine congrArg₂ (· + ·) (congrArg₂ (· + ·) e0 ?_) e1
  exact (sum_blockTerm m c T q).trans
    (Finset.sum_congr rfl fun h _ => congrArg₂ (· * ·) (hid_eq m c hur huc hgr hgc T h) (e2 h))

include hur huc hgr hgc hdr hdc in
/-- The program's result, the reshape to 2 × 256 tokens, is `kernelOut` of the arguments. -/
theorem result_eq :
    shapeCast S2x256x1024 (G m c) shapeCasts_S512x1024_S2x256x1024 = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext i
  have h0 : (i 0).val < 2 := (i 0).isLt
  have h1 : (i 1).val < 256 := (i 1).isLt
  have h2 : (i 2).val < 1024 := (i 2).isLt
  rw [shapeCast_apply (G m c) shapeCasts_S512x1024_S2x256x1024 i (ix2 (tokOf i) (i 2))
    (by rewrite [Shape.rowMajor_val_two, Shape.rowMajor_val_three]
        show (256 * (i 0).val + (i 1).val) * 1024 + (i 2).val = ((i 0).val * 256 + (i 1).val) * 1024 + (i 2).val
        omega)]
  exact G_eq m c hur huc hgr hgc hdr hdc (tokOf i) (i 2)

end

/-- The run of the kernel program: it ends with `kernelOut` of its arguments in the result, the arguments unchanged. -/
theorem run (ρ : Dev nD → PrngReg)
    (hur : ∀ c : Dev nD, InRange (m ((c.tc : Thread nD τ).loc main_arg1)) 4096) (huc : ∀ c : Dev nD, InRange (m ((c.tc : Thread nD τ).loc main_arg2)) 1024)
    (hgr : ∀ c : Dev nD, InRange (m ((c.tc : Thread nD τ).loc main_arg5)) 4096) (hgc : ∀ c : Dev nD, InRange (m ((c.tc : Thread nD τ).loc main_arg6)) 1024)
    (hdr : ∀ c : Dev nD, InRange (m ((c.tc : Thread nD τ).loc main_arg9)) 1024) (hdc : ∀ c : Dev nD, InRange (m ((c.tc : Thread nD τ).loc main_arg10)) 4096) :
    θ_run (defs (F := Ideal)) (onTc (τ := τ) (main (F := Ideal))) ⟨m, fun _ => 0, ρ⟩ fun r => ∀ c : Dev nD,
      r.2.mem ((c.tc : Thread nD τ).loc main_v43) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
    ⟨(((h c).2 main_v43 (Pipeline.mem_restRefs_of main_v43 (by decide) (by decide))).trans (result_arr m c)).trans
        (result_eq m c (hur c) (huc c) (hgr c) (hgc c) (hdr c) (hdc c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Value

end
-- ==== Proof.LibGatherCols.lean ====
import Idealize.ShloMosaic.PureOps
import Idealize.ShloMosaic.Lib.ValueIdx

/-!
# A column gather, read at an index

The COLUMN GATHER `y[:, r] = x[:, idx[r]]` of an operand `x : [C, N]` at a column of start
indices `idx : [R, 1]`, read at one index of its result: result element `(q, r)` is `x` at row
`q` and column `idx[r, 0]`, that word read as a signed integer and clamped into `[0, N − 1]`.

In the operation's own terms: the result's axis 0 is its one offset axis and reads the operand's
axis 0, the only operand axis that is not collapsed, over a slice of full height `C`; the
result's axis 1 is its one batch axis and reads the start indices' axis 0; the start index has
one component, found on the start indices' axis 1, and it addresses the operand's axis 1, which
is collapsed (slice width one).  So on the operand's axis 0 the start is zero and the offset is
the result's row `q`, and on the operand's axis 1 the offset is zero and the start is the
clamped start index of the result's column `r`.
-/

namespace Idealize.ShloMosaic.HostIdxCols

open Idealize.ShloMosaic Idealize.ShloMosaic.ValueIdx

/-- THE COLUMN GATHER READ AT `(q, r)`: the operand at row `q` and column `idx[r, 0]`, read
    signed and clamped into `[0, N − 1]`. -/
theorem gather_cols_apply {α : Type} {N R C w : Nat} (hN : 0 < N)
    (d : GatherDims ⟨2, ![C, N]⟩ ⟨2, ![R, 1]⟩ ⟨2, ![C, R]⟩)
    (hod : d.offsetDims = [0]) (hcd : d.collapsedSliceDims = [1]) (hob : d.operandBatchingDims = [])
    (hsb : d.startIndicesBatchingDims = []) (hsim : d.startIndexMap = [1]) (hiv : d.indexVectorDim = 1)
    (hss : d.sliceSizes = ![C, 1])
    (x : (⟨2, ![C, N]⟩ : Shape).Idx → α) (idx : IVec ⟨2, ![R, 1]⟩ w) (q : Fin C) (r : Fin R) :
    Host.gather d x idx (ix2 q r)
      = x (ix2 q ⟨min (idx (ix2 r (0 : Fin 1))).toInt.toNat (N - 1), by omega⟩) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    -- the operand's row axis: no start, no batching, the offset is the result's row
    show GatherDims.start _ (ix2 q r) idx 0 + GatherDims.batchCoord _ (ix2 q r) 0
      + GatherDims.offCoord _ (ix2 q r) 0 = _
    rw [GatherDims.batchCoord_eq_zero _ _ _ List.not_mem_nil]
    unfold GatherDims.start
    rw [dif_neg (show (0 : Fin 2) ∉ ([1] : List (Fin 2)) by decide)]
    simp only [Nat.add_zero, Nat.zero_add]
    unfold GatherDims.offCoord
    rw [dif_pos ((GatherDims.mem_sKept _ _).mpr
      ⟨show (0 : Fin 2) ∉ ([1] : List (Fin 2)) by decide, List.not_mem_nil⟩)]
    rfl
  | ⟨1, _⟩ =>
    -- the operand's column axis: collapsed, so no offset; the start is the clamped start index
    show GatherDims.start _ (ix2 q r) idx 1 + GatherDims.batchCoord _ (ix2 q r) 1
      + GatherDims.offCoord _ (ix2 q r) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![C, N]⟩) (si := ⟨2, ![R, 1]⟩) (t := ⟨2, ![C, R]⟩)
        ⟨[0], [1], [], [], [1], 1, ![C, 1], wf⟩ (ix2 q r)
        ⟨List.idxOf (1 : Fin 2) [1], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl

end Idealize.ShloMosaic.HostIdxCols
-- ==== Proof.RefLayers.lean ====
/-
  The reference's first two projections read at an index.

  Each projection takes a list of 262144 entries (row n, col n, val n), the 512 × 1024 table of tokens X and a bias.
  It gathers, for every entry n, column  col n  of X (the index word is wrapped when negative and clamped into
  [0, 1023]; a word that is below 1024 read unsigned is not negative and is its own clamp, so the column read is
  col n itself), multiplies it by  val n, and adds the resulting row  (X[t, col n] · val n)_t  into row  row n  of a
  4096 × 512 table of zeros (an accumulating scatter of rows: an entry lands at its row word read as a signed integer,
  which for a word below 4096 is the word itself).  Transposed and with the bias added, element (t, h) is therefore

      Σ { X[t, col n] · val n | row n = h } + bias[h],

  the projection written entry by entry.  The sum the scatter gives runs over the entry numbers 0 ≤ n < 262144; the
  target's runs over the one-axis indices of the list, and the two index sets correspond by n ↦ (n).
-/
import proofs.«401864_j62380105007473_3_alg».proof.Proof.Gen.ReferenceIdeal.Read
import proofs.«401864_j62380105007473_3_alg».proof.Proof.LibGatherCols
import proofs.«401864_j62380105007473_3_alg».proof.Proof.LibScatterAdd
import proofs.«401864_j62380105007473_3_alg».proof.Proof.Spec
import Idealize.ShloMosaic.PureOps.Ideal.Laws
import Idealize.ShloMosaic.Lib.StableHlo.Predicate

set_option maxRecDepth 16384

noncomputable section

namespace Cert.ReferenceIdeal.RefLayers

open Cert.ReferenceIdeal Cert.ReferenceIdeal.Gen Cert.SparseMlp
open Idealize.ShloMosaic Idealize.ShloMosaic.ValueIdx

/-- A column word below 1024 is not negative, so the wrap's select keeps it. -/
theorem colWord (x2 : (⟨S262144, .i32⟩ : BufTy).Contents (Elt Ideal)) (h2 : InRange x2 1024) (n : Fin 262144) :
    Read.val_main_v6 (F := Ideal) x2 (ix2 n (0 : Fin 1)) = x2 (ix1 n) := by
  rw [Read.val_main_v6_apply, Read.val_main_v5_apply, Read.val_main_v2_apply, Read.val_main_v1_apply,
    Read.val_main_c_apply]
  have hi : Read.idx_main_v6 (ix2 n (0 : Fin 1)) = ix1 n := by
    funext a; match a with | ⟨0, _⟩ => rfl
  rw [hi]
  have hlt : (x2 (ix1 n)).toNat < 1024 := h2 (ix1 n)
  have hc : IntOp.cmpi .slt (x2 (ix1 n)) 0#32 = 0#1 := by
    apply eq_zero_of_ne_one
    intro hh
    have := (StableHlo.Predicate.slt_iff_toNat (a := x2 (ix1 n)) (b := 0#32) (by omega) (by decide)).mp hh
    simp at this
  rw [hc, select_zero]

/-- The reshaped input at (t, a) is token t's feature a. -/
theorem tok_read (x0 : (⟨S2x256x1024, .f32⟩ : BufTy).Contents (Elt Ideal)) (t : Fin 512) (a : Fin 1024) :
    Read.val_main_v0 (F := Ideal) x0 (ix2 t a) = tok x0 t a := by
  rw [Read.val_main_v0_apply]
  unfold tok
  congr 1
  funext c
  match c with
  | ⟨0, _⟩ => refine Fin.ext ?_; show (t.val * 1024 + a.val) / 262144 = t.val / 256; omega
  | ⟨1, _⟩ => refine Fin.ext ?_; show (t.val * 1024 + a.val) / 1024 % 256 = t.val % 256; omega
  | ⟨2, _⟩ => refine Fin.ext ?_; show (t.val * 1024 + a.val) % 1024 = a.val; omega

/-- The gather at (t, n): token t's feature  col n  (a word below 1024 is its own clamp into [0, 1023]). -/
theorem gather_read (x0 : (⟨S2x256x1024, .f32⟩ : BufTy).Contents (Elt Ideal))
    (x2 : (⟨S262144, .i32⟩ : BufTy).Contents (Elt Ideal)) (h2 : InRange x2 1024) (t : Fin 512) (n : Fin 262144) :
    Read.val_main_v7 (F := Ideal) x0 x2 (ix2 t n) = tok x0 t ⟨(x2 (ix1 n)).toNat, h2 (ix1 n)⟩ := by
  unfold Read.val_main_v7
  rw [HostIdxCols.gather_cols_apply (N := 1024) (by decide)
    gather_S512x1024_S262144x1_S512x262144_0_1_n_n_1_1_5121 rfl rfl rfl rfl rfl rfl rfl, tok_read]
  have hlt : (x2 (ix1 n)).toNat < 1024 := h2 (ix1 n)
  congr 1
  refine Fin.ext ?_
  show min (Read.val_main_v6 (F := Ideal) x2 (ix2 n (0 : Fin 1))).toInt.toNat (1024 - 1) = (x2 (ix1 n)).toNat
  rw [colWord x2 h2 n, StableHlo.Predicate.toInt_eq_toNat_of_lt (by omega), Int.toNat_natCast]
  omega

/-- The products, transposed: element (n, t) is token t's feature  col n  times  val n. -/
theorem prod_read (x0 : (⟨S2x256x1024, .f32⟩ : BufTy).Contents (Elt Ideal))
    (x2 : (⟨S262144, .i32⟩ : BufTy).Contents (Elt Ideal)) (x3 : (⟨S262144, .f32⟩ : BufTy).Contents (Elt Ideal))
    (h2 : InRange x2 1024) (n : Fin 262144) (t : Fin 512) :
    Read.val_main_v11 (F := Ideal) x0 x2 x3 (ix2 n t)
      = tok x0 t ⟨(x2 (ix1 n)).toNat, h2 (ix1 n)⟩ * x3 (ix1 n) := by
  rw [Read.val_main_v11_apply]
  have hi : Read.idx_main_v11 (ix2 n t) = ix2 t n := by
    funext a; match a with | ⟨0, _⟩ => rfl | ⟨1, _⟩ => rfl
  rw [hi, Read.val_main_v10_apply, Read.val_main_v9_apply, Read.val_main_v8_apply]
  have hj : Read.idx_main_v8 (Read.idx_main_v9 (ix2 t n)) = ix1 n := by
    funext a; match a with | ⟨0, _⟩ => rfl
  rw [hj, gather_read x0 x2 h2 t n]
  rfl

/-- The accumulating scatter at (o, t): the sum, over the entries whose row word is o, of the products at t. -/
theorem scatter_read (x0 : (⟨S2x256x1024, .f32⟩ : BufTy).Contents (Elt Ideal))
    (x1 x2 : (⟨S262144, .i32⟩ : BufTy).Contents (Elt Ideal)) (x3 : (⟨S262144, .f32⟩ : BufTy).Contents (Elt Ideal))
    (h1 : InRange x1 4096) (h2 : InRange x2 1024) (o : Fin 4096) (t : Fin 512) :
    Read.val_main_v14 (F := Ideal) x0 x1 x2 x3 (ix2 o t)
      = ∑ n ∈ Finset.univ.filter (fun n : Fin 262144 => (x1 (ix1 n)).toNat = o.val),
          tok x0 t ⟨(x2 (ix1 n)).toNat, h2 (ix1 n)⟩ * x3 (ix1 n) := by
  unfold Read.val_main_v14 Host.scatterAdd
  rw [Ideal.hostScatterAdd_def,
    Cert.LibScatterAdd.scatterAdd_rows_apply scatter_S4096x512_S262144x1_S262144x512_1_0_0_1 rfl rfl rfl rfl]
  rw [Read.val_main_v12_apply, Read.val_main_cst_apply]
  rw [show (FloatOps.ofBits .f32 0x00000000#32 : Ideal .f32) = Ideal.ofBits .f32 0x00000000#32 from rfl,
    Ideal.ofBits_zero_f32, zero_add]
  have hrow : ∀ n : Fin 262144, Read.val_main_v13 (F := Ideal) x1 (ix2 n (0 : Fin 1)) = x1 (ix1 n) := by
    intro n
    rw [Read.val_main_v13_apply]
    congr 1
    funext a; match a with | ⟨0, _⟩ => rfl
  refine Finset.sum_congr ?_ (fun n _ => prod_read x0 x2 x3 h2 n t)
  refine Finset.filter_congr (fun n _ => ?_)
  rw [hrow n]
  have hlt : (x1 (ix1 n)).toNat < 4096 := h1 (ix1 n)
  rw [StableHlo.Predicate.toInt_eq_toNat_of_lt (by omega)]
  exact Int.natCast_inj

/-- The entry numbers 0 ≤ n < 262144 and the one-axis indices of a list of entries correspond. -/
def entryEquiv : Fin 262144 ≃ SN.Idx where
  toFun n := ix1 n
  invFun i := i 0
  left_inv _ := rfl
  right_inv i := (eq_ix1 i).symm

theorem up_apply (x0 : (⟨S2x256x1024, .f32⟩ : BufTy).Contents (Elt Ideal))
    (x1 x2 : (⟨S262144, .i32⟩ : BufTy).Contents (Elt Ideal)) (x3 : (⟨S262144, .f32⟩ : BufTy).Contents (Elt Ideal))
    (x4 : (⟨S4096, .f32⟩ : BufTy).Contents (Elt Ideal))
    (h1 : InRange x1 4096) (h2 : InRange x2 1024) (t : Fin 512) (h : Fin 4096) :
    Read.val_main_v18 (F := Ideal) x0 x1 x2 x3 x4 (ix2 t h)
      = sparseLin (tok x0) x1 x2 x3 (fun h => x4 (ix1 h)) t h := by
  rw [Read.val_main_v18_apply, Read.val_main_v15_apply, Read.val_main_v17_apply, Read.val_main_v16_apply]
  have hi : Read.idx_main_v15 (ix2 t h) = ix2 h t := by
    funext a; match a with | ⟨0, _⟩ => rfl | ⟨1, _⟩ => rfl
  have hj : Read.idx_main_v16 (Read.idx_main_v17 (ix2 t h)) = ix1 h := by
    funext a; match a with | ⟨0, _⟩ => rfl
  rw [hi, hj, scatter_read x0 x1 x2 x3 h1 h2 h t]
  unfold sparseLin
  refine congrArg (fun z : EReal => z + x4 (ix1 h)) ?_
  refine Finset.sum_equiv entryEquiv (fun n => ?_) (fun n _ => ?_)
  · simp only [Finset.mem_filter, Finset.mem_univ, true_and]
    exact Iff.rfl
  · show _ = (if hlt : (x2 (ix1 n)).toNat < 1024 then tok x0 t ⟨(x2 (ix1 n)).toNat, hlt⟩ else 0) * x3 (ix1 n)
    rw [dif_pos (h2 (ix1 n))]

/-- The second projection is the first one's operations, one for one, on the second list of entries: the two stages are
    the same function of their arguments. -/
theorem gate_stage_eq (x0 : (⟨S2x256x1024, .f32⟩ : BufTy).Contents (Elt Ideal))
    (x5 x6 : (⟨S262144, .i32⟩ : BufTy).Contents (Elt Ideal)) (x7 : (⟨S262144, .f32⟩ : BufTy).Contents (Elt Ideal))
    (x8 : (⟨S4096, .f32⟩ : BufTy).Contents (Elt Ideal)) :
    Read.val_main_v36 (F := Ideal) x0 x5 x6 x7 x8 = Read.val_main_v18 (F := Ideal) x0 x5 x6 x7 x8 := rfl

theorem gate_apply (x0 : (⟨S2x256x1024, .f32⟩ : BufTy).Contents (Elt Ideal))
    (x5 x6 : (⟨S262144, .i32⟩ : BufTy).Contents (Elt Ideal)) (x7 : (⟨S262144, .f32⟩ : BufTy).Contents (Elt Ideal))
    (x8 : (⟨S4096, .f32⟩ : BufTy).Contents (Elt Ideal))
    (h5 : InRange x5 4096) (h6 : InRange x6 1024) (t : Fin 512) (h : Fin 4096) :
    Read.val_main_v36 (F := Ideal) x0 x5 x6 x7 x8 (ix2 t h)
      = sparseLin (tok x0) x5 x6 x7 (fun h => x8 (ix1 h)) t h := by
  rw [gate_stage_eq]
  exact up_apply x0 x5 x6 x7 x8 h5 h6 t h

end Cert.ReferenceIdeal.RefLayers

end
-- ==== Proof.RefValue.lean ====
/-
  The reference program's result as a function of its thirteen arguments, at the extended reals.

  The hidden activation: with u and g the "up" and "gate" projections of a token, the program computes
  u · (1 / (1 + exp (−u))) · g, and 1 / (1 + exp (−u)) is the logistic function of u by definition.
  The "down" projection gathers, for every entry n of its list, column  col n  of the hidden activation (the index,
  in range, is neither wrapped nor clamped), multiplies by the entry's value and adds the products into row  row n  of a
  zero table; transposed and with the bias added, element (t, d) is the sum over the entries of row d of
  hidden[t, col n] · val n, plus the bias at d.  The result adds the input token to it, and the last reshape reads
  element (b, r, d) at token 256·b + r.
-/
import proofs.«401864_j62380105007473_3_alg».proof.Proof.Gen.ReferenceIdeal.Read
import proofs.«401864_j62380105007473_3_alg».proof.Proof.RefLayers
import proofs.«401864_j62380105007473_3_alg».proof.Proof.LibGatherCols
import proofs.«401864_j62380105007473_3_alg».proof.Proof.LibScatterAdd
import proofs.«401864_j62380105007473_3_alg».proof.Proof.Spec
import Idealize.ShloMosaic.Lib.ValueIdxRank1
import Idealize.ShloMosaic.Lib.StableHlo.Predicate
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Gen Cert.SparseMlp
open Idealize.ShloMosaic Idealize.ShloMosaic.ValueIdx Idealize.ShloMosaic.TcCoe Idealize.SL.Sem Idealize.ShloMosaic.StableHlo

/-- The hidden activation: (u · logistic u) · g of the two projections. -/
theorem hidden_apply (x0 : (⟨S2x256x1024, .f32⟩ : BufTy).Contents (Elt Ideal))
    (x1 x2 : (⟨S262144, .i32⟩ : BufTy).Contents (Elt Ideal)) (x3 : (⟨S262144, .f32⟩ : BufTy).Contents (Elt Ideal))
    (x4 : (⟨S4096, .f32⟩ : BufTy).Contents (Elt Ideal))
    (x5 x6 : (⟨S262144, .i32⟩ : BufTy).Contents (Elt Ideal)) (x7 : (⟨S262144, .f32⟩ : BufTy).Contents (Elt Ideal))
    (x8 : (⟨S4096, .f32⟩ : BufTy).Contents (Elt Ideal))
    (h1 : InRange x1 4096) (h2 : InRange x2 1024) (h5 : InRange x5 4096) (h6 : InRange x6 1024)
    (t : Fin 512) (h : Fin 4096) :
    Read.val_main_v38 (F := Ideal) x0 x1 x2 x3 x4 x5 x6 x7 x8 (ix2 t h)
      = hiddenSparse x0 x1 x2 x3 x4 x5 x6 x7 x8 t h := by
  rw [Read.val_main_v38_apply, Read.val_main_v37_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    RefLayers.up_apply x0 x1 x2 x3 x4 h1 h2 t h, RefLayers.gate_apply x0 x5 x6 x7 x8 h5 h6 t h]
  simp only [Ideal.mulf_def, Ideal.addf_def, Ideal.hostDivf_def, Ideal.hostUnary_exp_def, Ideal.hostNegf_def, Ideal.negf_def,
    Ideal.ofBits_def, Ideal.ofBits_one_f32]
  rfl

/-! ## Index words in range -/

/-- A word in `[0, n)`, `n ≤ 2³¹`, is not negative read signed: the select on "the word is negative" keeps it. -/
theorem select_keep (w a : BitVec 32) (n : ℕ) (hn : n ≤ 2 ^ 31) (hw : w.toNat < n) :
    Scalar.select (IntOp.cmpi .slt w 0#32) a w = w := by
  have h0 : IntOp.cmpi .slt w 0#32 = 0#1 := by
    refine eq_zero_of_ne_one (fun h => ?_)
    have hlt := (Predicate.slt_iff_toNat (a := w) (b := 0#32) (by omega) (by decide)).mp h
    exact absurd hlt (by simp)
  rw [h0, select_zero]

/-- The column gather at a start index in range reads that column: the signed reading is the unsigned one and the
    clamp into `[0, N − 1]` does nothing. -/
theorem gather_cols_inRange {α : Type} {N R C : ℕ} (hN : 0 < N) (hN' : N ≤ 2 ^ 31)
    (d : GatherDims ⟨2, ![C, N]⟩ ⟨2, ![R, 1]⟩ ⟨2, ![C, R]⟩)
    (hod : d.offsetDims = [0]) (hcd : d.collapsedSliceDims = [1]) (hob : d.operandBatchingDims = [])
    (hsb : d.startIndicesBatchingDims = []) (hsim : d.startIndexMap = [1]) (hiv : d.indexVectorDim = 1)
    (hss : d.sliceSizes = ![C, 1])
    (x : (⟨2, ![C, N]⟩ : Shape).Idx → α) (idx : IVec ⟨2, ![R, 1]⟩ 32) (q : Fin C) (r : Fin R)
    (hr : (idx (ix2 r (0 : Fin 1))).toNat < N) :
    Host.gather d x idx (ix2 q r) = x (ix2 q ⟨(idx (ix2 r (0 : Fin 1))).toNat, hr⟩) := by
  rw [HostIdxCols.gather_cols_apply hN d hod hcd hob hsb hsim hiv hss]
  refine congrArg (fun k => x (ix2 q k)) (Fin.ext ?_)
  show min (idx (ix2 r (0 : Fin 1))).toInt.toNat (N - 1) = (idx (ix2 r (0 : Fin 1))).toNat
  rw [Predicate.toInt_eq_toNat_of_lt (by omega), Int.toNat_natCast]
  exact Nat.min_eq_left (by omega)

/-! ## The third projection -/

section Down
variable (x0 : (⟨S2x256x1024, .f32⟩ : BufTy).Contents (Elt Ideal))
  (x1 x2 : (⟨S262144, .i32⟩ : BufTy).Contents (Elt Ideal)) (x3 : (⟨S262144, .f32⟩ : BufTy).Contents (Elt Ideal))
  (x4 : (⟨S4096, .f32⟩ : BufTy).Contents (Elt Ideal))
  (x5 x6 : (⟨S262144, .i32⟩ : BufTy).Contents (Elt Ideal)) (x7 : (⟨S262144, .f32⟩ : BufTy).Contents (Elt Ideal))
  (x8 : (⟨S4096, .f32⟩ : BufTy).Contents (Elt Ideal))
  (x9 x10 : (⟨S262144, .i32⟩ : BufTy).Contents (Elt Ideal)) (x11 : (⟨S262144, .f32⟩ : BufTy).Contents (Elt Ideal))
  (x12 : (⟨S1024, .f32⟩ : BufTy).Contents (Elt Ideal))

/-- The start index of entry `n`: its column word, kept as it is. -/
theorem down_start (h10 : InRange x10 4096) (n : Fin 262144) :
    Read.val_main_v44 (F := Ideal) x10 (ix2 n (0 : Fin 1)) = x10 (ix1 n) := by
  have hi : Read.idx_main_v44 (ix2 n (0 : Fin 1)) = ix1 n := by
    funext a; match a with | ⟨0, _⟩ => rfl
  rw [Read.val_main_v44_apply, hi, Read.val_main_v43_apply, Read.val_main_v40_apply, Read.val_main_v39_apply,
    Read.val_main_c_4_apply]
  exact select_keep _ _ 4096 (by norm_num) (h10 _)

/-- The gathered column of entry `n` at token `t`: the hidden activation at the entry's column. -/
theorem down_gather (h1 : InRange x1 4096) (h2 : InRange x2 1024) (h5 : InRange x5 4096) (h6 : InRange x6 1024)
    (h10 : InRange x10 4096) (t : Fin 512) (n : Fin 262144) :
    Read.val_main_v45 (F := Ideal) x0 x1 x2 x3 x4 x5 x6 x7 x8 x10 (ix2 t n)
      = hiddenSparse x0 x1 x2 x3 x4 x5 x6 x7 x8 t ⟨(x10 (ix1 n)).toNat, h10 (ix1 n)⟩ := by
  have hr : (Read.val_main_v44 (F := Ideal) x10 (ix2 n (0 : Fin 1))).toNat < 4096 := by
    rw [down_start x10 h10 n]; exact h10 _
  unfold Read.val_main_v45
  rw [gather_cols_inRange (N := 4096) (R := 262144) (C := 512) (by norm_num) (by norm_num)
    gather_S512x4096_S262144x1_S512x262144_0_1_n_n_1_1_5121 rfl rfl rfl rfl rfl rfl rfl _ _ t n hr]
  have hk : (⟨(Read.val_main_v44 (F := Ideal) x10 (ix2 n (0 : Fin 1))).toNat, hr⟩ : Fin 4096)
      = ⟨(x10 (ix1 n)).toNat, h10 (ix1 n)⟩ := Fin.ext (congrArg BitVec.toNat (down_start x10 h10 n))
  rw [hk]
  exact hidden_apply x0 x1 x2 x3 x4 x5 x6 x7 x8 h1 h2 h5 h6 t _

/-- The accumulating scatter at row `d`, token `t`: the products of the entries whose row word is `d`. -/
theorem down_scatter (h1 : InRange x1 4096) (h2 : InRange x2 1024) (h5 : InRange x5 4096) (h6 : InRange x6 1024)
    (h9 : InRange x9 1024) (h10 : InRange x10 4096) (t : Fin 512) (d : Fin 1024) :
    Read.val_main_v52 (F := Ideal) x0 x1 x2 x3 x4 x5 x6 x7 x8 x9 x10 x11 (ix2 d t)
      = ∑ n ∈ Finset.univ.filter (fun n : Fin 262144 => (x9 (ix1 n)).toNat = d.val),
          hiddenSparse x0 x1 x2 x3 x4 x5 x6 x7 x8 t ⟨(x10 (ix1 n)).toNat, h10 (ix1 n)⟩ * x11 (ix1 n) := by
  unfold Read.val_main_v52 Host.scatterAdd
  rw [Ideal.hostScatterAdd_def, Cert.LibScatterAdd.scatterAdd_rows_apply (S := 1024) (T := 512) (R := 262144)
    scatter_S1024x512_S262144x1_S262144x512_1_0_0_1 rfl rfl rfl rfl,
    Read.val_main_v50_apply, Read.val_main_cst_6_apply, Ideal.ofBits_def, Ideal.ofBits_zero_f32, zero_add]
  refine Finset.sum_congr (Finset.filter_congr fun n _ => ?_) fun n _ => ?_
  · have hi : Read.idx_main_v51 (ix2 n (0 : Fin 1)) = ix1 n := by
      funext a; match a with | ⟨0, _⟩ => rfl
    rw [Read.val_main_v51_apply, hi, Predicate.toInt_eq_toNat_of_lt (by have := h9 (ix1 n); omega)]
    exact Int.natCast_inj
  · have hi49 : Read.idx_main_v49 (ix2 n t) = ix2 t n := by
      funext a; match a with | ⟨0, _⟩ => rfl | ⟨1, _⟩ => rfl
    have hi47 : Read.idx_main_v46 (Read.idx_main_v47 (ix2 t n)) = ix1 n := by
      funext a; match a with | ⟨0, _⟩ => rfl
    rw [Read.val_main_v49_apply, hi49, Read.val_main_v48_apply,
      down_gather x0 x1 x2 x3 x4 x5 x6 x7 x8 x10 h1 h2 h5 h6 h10 t n,
      Read.val_main_v47_apply, Read.val_main_v46_apply, hi47]
    rfl

/-- The third projection at token `t`, feature `d`. -/
theorem down_apply (h1 : InRange x1 4096) (h2 : InRange x2 1024) (h5 : InRange x5 4096) (h6 : InRange x6 1024)
    (h9 : InRange x9 1024) (h10 : InRange x10 4096) (t : Fin 512) (d : Fin 1024) :
    Read.val_main_v56 (F := Ideal) x0 x1 x2 x3 x4 x5 x6 x7 x8 x9 x10 x11 x12 (ix2 t d)
      = sparseLin (hiddenSparse x0 x1 x2 x3 x4 x5 x6 x7 x8) x9 x10 x11 (fun d => x12 (ix1 d)) t d := by
  have hi53 : Read.idx_main_v53 (ix2 t d) = ix2 d t := by
    funext a; match a with | ⟨0, _⟩ => rfl | ⟨1, _⟩ => rfl
  have hi55 : Read.idx_main_v54 (Read.idx_main_v55 (ix2 t d)) = ix1 d := by
    funext a; match a with | ⟨0, _⟩ => rfl
  rw [Read.val_main_v56_apply, Read.val_main_v53_apply, hi53,
    down_scatter x0 x1 x2 x3 x4 x5 x6 x7 x8 x9 x10 x11 h1 h2 h5 h6 h9 h10 t d,
    Read.val_main_v55_apply, Read.val_main_v54_apply, hi55, Ideal.addf_def]
  unfold sparseLin
  refine congrArg (· + x12 (ix1 d)) ?_
  rw [Finset.sum_filter, Finset.sum_filter]
  refine (Fintype.sum_equiv idxEquiv1 _ _ fun n => ?_).symm
  obtain ⟨k, rfl⟩ : ∃ k, n = ix1 k := ⟨n 0, eq_ix1 n⟩
  show (if (x9 (ix1 k)).toNat = d.val then _ else 0) = if (x9 (ix1 k)).toNat = d.val then _ else 0
  rw [dif_pos (h10 (ix1 k))]
  rfl

end Down

/-! ## The whole result -/

/-- The first reshape reads token `t = 256·b + r`, feature `a`, of the input. -/
theorem token_apply (x0 : (⟨S2x256x1024, .f32⟩ : BufTy).Contents (Elt Ideal)) (t : Fin 512) (a : Fin 1024) :
    Read.val_main_v0 (F := Ideal) x0 (ix2 t a) = tok x0 t a := by
  rw [Read.val_main_v0_apply]
  unfold tok
  refine congrArg x0 ?_
  funext b
  have ht : t.val < 512 := t.isLt
  have ha : a.val < 1024 := a.isLt
  match b with
  | ⟨0, _⟩ => exact Fin.ext (by show (t.val * 1024 + a.val) / 262144 = t.val / 256; omega)
  | ⟨1, _⟩ => exact Fin.ext (by show (t.val * 1024 + a.val) / 1024 % 256 = t.val % 256; omega)
  | ⟨2, _⟩ => exact Fin.ext (by show (t.val * 1024 + a.val) % 1024 = a.val; omega)

/-- The reference's result at an index: the input token plus the third projection of the hidden activation. -/
theorem result_apply (x0 : (⟨S2x256x1024, .f32⟩ : BufTy).Contents (Elt Ideal))
    (x1 x2 : (⟨S262144, .i32⟩ : BufTy).Contents (Elt Ideal)) (x3 : (⟨S262144, .f32⟩ : BufTy).Contents (Elt Ideal))
    (x4 : (⟨S4096, .f32⟩ : BufTy).Contents (Elt Ideal))
    (x5 x6 : (⟨S262144, .i32⟩ : BufTy).Contents (Elt Ideal)) (x7 : (⟨S262144, .f32⟩ : BufTy).Contents (Elt Ideal))
    (x8 : (⟨S4096, .f32⟩ : BufTy).Contents (Elt Ideal))
    (x9 x10 : (⟨S262144, .i32⟩ : BufTy).Contents (Elt Ideal)) (x11 : (⟨S262144, .f32⟩ : BufTy).Contents (Elt Ideal))
    (x12 : (⟨S1024, .f32⟩ : BufTy).Contents (Elt Ideal))
    (h1 : InRange x1 4096) (h2 : InRange x2 1024) (h5 : InRange x5 4096) (h6 : InRange x6 1024)
    (h9 : InRange x9 1024) (h10 : InRange x10 4096) (i : SX.Idx) :
    Read.val_main_v58 (F := Ideal) x0 x1 x2 x3 x4 x5 x6 x7 x8 x9 x10 x11 x12 i
      = refOut x0 x1 x2 x3 x4 x5 x6 x7 x8 x9 x10 x11 x12 i := by
  obtain ⟨b, r, d, rfl⟩ : ∃ (b : Fin 2) (r : Fin 256) (d : Fin 1024), i = ix3 b r d := ⟨i 0, i 1, i 2, eq_ix3 i⟩
  have hb : b.val < 2 := b.isLt
  have hr : r.val < 256 := r.isLt
  have hd : d.val < 1024 := d.isLt
  have hi58 : Read.idx_main_v58 (ix3 b r d) = ix2 (tokOf (ix3 b r d)) d := by
    funext a
    match a with
    | ⟨0, _⟩ =>
      exact Fin.ext (by
        show ((b.val * 256 + r.val) * 1024 + d.val) / 1024 = 256 * b.val + r.val
        omega)
    | ⟨1, _⟩ =>
      exact Fin.ext (by
        show ((b.val * 256 + r.val) * 1024 + d.val) % 1024 = d.val
        omega)
  rw [Read.val_main_v58_apply, hi58, Read.val_main_v57_apply, token_apply,
    down_apply x0 x1 x2 x3 x4 x5 x6 x7 x8 x9 x10 x11 x12 h1 h2 h5 h6 h9 h10, Ideal.addf_def]
  rfl

/-! ## The run -/

/-- Every weakly fair execution of the reference terminates with its result buffer at `refOut` of the arguments'
    launch contents (index words in range), the arguments unchanged. -/
theorem run (m' : (ℓ : Loc nD τ sig) → Buf (Elt Ideal) ℓ) (ρ' : Dev nD → PrngReg)
    (h1 : ∀ c : Dev nD, InRange (s := S262144) (m' ((c.tc : Thread nD τ).loc main_arg1)) 4096)
    (h2 : ∀ c : Dev nD, InRange (s := S262144) (m' ((c.tc : Thread nD τ).loc main_arg2)) 1024)
    (h5 : ∀ c : Dev nD, InRange (s := S262144) (m' ((c.tc : Thread nD τ).loc main_arg5)) 4096)
    (h6 : ∀ c : Dev nD, InRange (s := S262144) (m' ((c.tc : Thread nD τ).loc main_arg6)) 1024)
    (h9 : ∀ c : Dev nD, InRange (s := S262144) (m' ((c.tc : Thread nD τ).loc main_arg9)) 1024)
    (h10 : ∀ c : Dev nD, InRange (s := S262144) (m' ((c.tc : Thread nD τ).loc main_arg10)) 4096) :
    θ_run (defs (F := Ideal)) (onTc (τ := τ) (main (F := Ideal))) ⟨m', fun _ => 0, ρ'⟩ fun r => ∀ c : Dev nD,
      r.2.mem ((c.tc : Thread nD τ).loc main_v58)
        = refOut (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
            (m' ((c.tc : Thread nD τ).loc main_arg6)) (m' ((c.tc : Thread nD τ).loc main_arg7))
            (m' ((c.tc : Thread nD τ).loc main_arg8)) (m' ((c.tc : Thread nD τ).loc main_arg9))
            (m' ((c.tc : Thread nD τ).loc main_arg10)) (m' ((c.tc : Thread nD τ).loc main_arg11))
            (m' ((c.tc : Thread nD τ).loc main_arg12))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run defs _ _).mono (fun _ h c => ⟨(h c).1.trans ((Read.val_main_v58_eq m' c).trans (funext fun i =>
      result_apply _ _ _ _ _ _ _ _ _ _ _ _ _ (h1 c) (h2 c) (h5 c) (h6 c) (h9 c) (h10 c) i)), (h c).2⟩)
    (Cert.ReferenceIdeal.Value.run (F := Ideal) m' ρ')

end Cert.ReferenceIdeal.RefValue

end
-- ==== Proof.lean ====
/-
  A two-layer gated perceptron with sparse weights, computed two ways, gives one result.

  The weights arrive as three lists of nonzero entries (row, column, value). The kernel program first adds each list
  into a dense table (entries that meet are summed) and then runs one blocked pipeline: per block of 256 tokens and per
  block of 512 hidden columns it forms the two projections, the gated activation, and accumulates that block's share of
  the down projection; after the last hidden block it adds the token and the output bias. The reference never builds a
  table: for every entry it gathers the input's column, multiplies by the value and adds the product into the entry's row.

  With every float argument real and every index inside the table it addresses (the precondition; outside it the two
  programs part ways: a row past the end is dropped by the reference and lands on a neighbouring table entry in the
  kernel's flat indexing) both results are  token + Σ_h hidden · down + bias,  the kernel's through dense tables, the
  reference's entry by entry; the two spellings agree by distributing each input entry over the entries of its column
  and exchanging the sums, which on the extended reals needs the factors real.

  Modules: the shared vocabulary and the algebra (Spec, Bridge); the precondition read (Hyps); the kernel side
  (KFrame, KBlocks, KPayload, KValue, KHostDown, KHostUpGate, KResult); the reference side (RefLayers, RefValue).
  The ideal pass rewrote nothing, so the kernel's idealization is the kernel's own text.
-/
import proofs.«401864_j62380105007473_3_alg».proof.Defs
import proofs.«401864_j62380105007473_3_alg».proof.Proof.Gen.Kernel
import proofs.«401864_j62380105007473_3_alg».proof.Proof.Gen.Kernel.Skeleton
import proofs.«401864_j62380105007473_3_alg».proof.Proof.Gen.Kernel.Launch
import proofs.«401864_j62380105007473_3_alg».proof.Proof.Gen.Kernel.Points
import proofs.«401864_j62380105007473_3_alg».proof.Proof.Gen.Kernel.Frame
import proofs.«401864_j62380105007473_3_alg».proof.Proof.Gen.KernelIdeal
import proofs.«401864_j62380105007473_3_alg».proof.Proof.Gen.KernelIdeal.Skeleton
import proofs.«401864_j62380105007473_3_alg».proof.Proof.Gen.KernelIdeal.Launch
import proofs.«401864_j62380105007473_3_alg».proof.Proof.Gen.KernelIdeal.Points
import proofs.«401864_j62380105007473_3_alg».proof.Proof.Gen.KernelIdeal.Frame
import proofs.«401864_j62380105007473_3_alg».proof.Proof.Gen.ReferenceIdeal
import proofs.«401864_j62380105007473_3_alg».proof.Proof.Gen.Pre_finite_inputs
import proofs.«401864_j62380105007473_3_alg».proof.Proof.Gen.ReferenceIdeal.Run
import proofs.«401864_j62380105007473_3_alg».proof.Proof.Gen.ReferenceIdeal.Read
import proofs.«401864_j62380105007473_3_alg».proof.Proof.Hyps
import proofs.«401864_j62380105007473_3_alg».proof.Proof.Bridge
import proofs.«401864_j62380105007473_3_alg».proof.Proof.KResult
import proofs.«401864_j62380105007473_3_alg».proof.Proof.RefValue
import Idealize.ShloMosaic.Adequacy
import Idealize.ShloMosaic.Init

noncomputable section

namespace Cert.Proof

open Idealize.ShloMosaic Idealize.SL.Sem Cert.SparseMlp

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with one result: the kernel's is the spelling through dense tables, the reference's the spelling
    entry by entry, of arguments that agree and satisfy the precondition. -/
theorem algebraic : Cert.algebraic_KernelIdeal_ReferenceIdeal := by
  intro m ρ m' ρ' hpre hagree
  have hf := fun c : Dev Cert.KernelIdeal.nD =>
    Cert.SparseMlp.Hyps.of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (hpre c)
  refine ⟨fun c => kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.Value.run m ρ (fun c => (hf c).urow) (fun c => (hf c).ucol) (fun c => (hf c).grow)
      (fun c => (hf c).gcol) (fun c => (hf c).drow) (fun c => (hf c).dcol), ?_⟩
  refine (θ_run Cert.ReferenceIdeal.defs _ _).mono (fun _ h c => ⟨(h c).1.trans ?_, (h c).2⟩)
    (Cert.ReferenceIdeal.RefValue.run m' ρ'
      (fun c => by rw [(hagree c).2.1]; exact (hf c).urow)
      (fun c => by rw [(hagree c).2.2.1]; exact (hf c).ucol)
      (fun c => by rw [(hagree c).2.2.2.2.2.1]; exact (hf c).grow)
      (fun c => by rw [(hagree c).2.2.2.2.2.2.1]; exact (hf c).gcol)
      (fun c => by rw [(hagree c).2.2.2.2.2.2.2.2.2.1]; exact (hf c).drow)
      (fun c => by rw [(hagree c).2.2.2.2.2.2.2.2.2.2.1]; exact (hf c).dcol))
  obtain ⟨a0, a1, a2, a3, a4, a5, a6, a7, a8, a9, a10, a11, a12⟩ := hagree c
  rw [a0, a1, a2, a3, a4, a5, a6, a7, a8, a9, a10, a11, a12]
  exact (kernelOut_eq_refOut _ _ _ _ _ _ _ _ _ _ _ _ _ (hf c).x (hf c).uval (hf c).ub (hf c).gval (hf c).gb (hf c).dval
    (hf c).db (hf c).urow (hf c).ucol (hf c).grow (hf c).gcol (hf c).drow (hf c).dcol).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
